-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S3x3 : S_.BroadcastsInDim S3x3 (![] : Fin 0 → Fin S3x3.rank)
  reducesTo_S3x3_S_d0_1 : S3x3.ReducesTo [0, 1] S_

variable [Facts]

def fn_part2 {F : FTy → Type} [FloatOps F] (main_arg7 : FVec F S128x1 .f32) (main_arg8 : FVec F S128x1 .f32) (main_arg9 : FVec F S3x3 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S3x3 .f32 := Host.absf main_arg9
  let main_cst_16 : FVec F S_ .f32 := constant S_ .f32 0x7F800000#32
  let main_v45 : FVec F S3x3 .f32 := broadcastInDim S3x3 ![] bcast_S_S3x3 main_cst_16
  let main_v46 : IVec S3x3 1 := cmpf .olt main_v44 main_v45
  let main_c_17 : IVec S_ 1 := constantI S_ 1 1#1
  let main_v47 : IVec S_ 1 := (fun x v => Host.reduce IntOp.andi x v reducesTo_S3x3_S_d0_1 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩
abbrev S128x3 : Shape := ⟨2, ![128, 3]⟩
abbrev S200x10000 : Shape := ⟨2, ![200, 10000]⟩
abbrev S200x128 : Shape := ⟨2, ![200, 128]⟩
abbrev S200x3 : Shape := ⟨2, ![200, 3]⟩
abbrev S200 : Shape := ⟨1, ![200]⟩
abbrev S200x1 : Shape := ⟨2, ![200, 1]⟩

abbrev nBuf : Space → Nat
  | .hbm => 16
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S_, .f32⟩
  | .hbm, ⟨11, _⟩ => ⟨S128x1, .f32⟩
  | .hbm, ⟨12, _⟩ => ⟨S128x3, .f32⟩
  | .hbm, ⟨13, _⟩ => ⟨S128x3, .f32⟩
  | .hbm, ⟨14, _⟩ => ⟨S128x3, .f32⟩
  | .hbm, ⟨15, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x3, .f32⟩
  | .local _ .vmem, ⟨9, _⟩ => ⟨S128x3, .f32⟩
  | .local _ .vmem, ⟨10, _⟩ => ⟨S128x3, .f32⟩
  | .local _ .vmem, ⟨11, _⟩ => ⟨S3x3, .f32⟩
  | .local _ .vmem, ⟨12, _⟩ => ⟨S200x128, .f32⟩
  | .local _ .vmem, ⟨13, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v13 : BitVec 32 := Scalar.muli arg0 c200_i32
  let v14 : Index := Scalar.indexCast v13
  let c0_14 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S128x1 : S_.BroadcastsInDim S128x1 (![] : Fin 0 → Fin S128x1.rank)
  concatenates_S128x1_S128x1_S128x1_S128x3_d1 : Shape.Concatenates [S128x1, S128x1, S128x1] S128x3 1
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  inb_S128x128_S128x128_0_0 : ∀ a, (![0, 0] : Fin 2 → Nat) a + S128x128.size a ≤ S128x128.size a
  h_S128x128 : 0 < S128x128.numel
  h_S200x128 : 0 < S200x128.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3x3_S3x3_0_0 : ∀ a, (![0, 0] : Fin 2 → Nat) a + S3x3.size a ≤ S3x3.size a
  h_S3x3 : 0 < S3x3.numel
  reduces_S200x3_S200 : S200x3.Reduces [1] S200
  shapeCasts_S200_S200x1 : S200.ShapeCasts S200x1
  broadcasts_S200x1_S200x3 : S200x1.Broadcasts S200x3
  slices_S200x3_o0_0_S200x1 : S200x3.Slices ![0, 0] S200x1
  broadcasts_S200x1_S200x128 : S200x1.Broadcasts S200x128
  slices_S200x3_o0_1_S200x1 : S200x3.Slices ![0, 1] S200x1
  slices_S200x3_o0_2_S200x1 : S200x3.Slices ![0, 2] S200x1
  inb_S200x128_S200x128_0_0 : ∀ a, (![0, 0] : Fin 2 → Nat) a + S200x128.size a ≤ S200x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x128_S128x3_S200x3_1_0_0_1_n_n_wf : DotDims.WF S200x128 S128x3 S200x3 [1] [0] [0] [1] [] []
  dot_S200x3_S3x3_S200x3_1_0_0_1_n_n_wf : DotDims.WF S200x3 S3x3 S200x3 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x3.size a ≤ S128x3.size a
  hwx0_6 : ∀ i : grid0.Coords, EltTy.bits .f32 = 32 ∨ (Rect.block (s := S128x3) S128x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x3.size a ≤ S128x3.size a
  hwx0_8 : ∀ i : grid0.Coords, EltTy.bits .f32 = 32 ∨ (Rect.block (s := S128x3) S128x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x3.size a ≤ S3x3.size a
  hwx0_9 : ∀ i : grid0.Coords, EltTy.bits .f32 = 32 ∨ (Rect.block (s := S3x3) S3x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x128.size a ≤ S10000x128.size a
  hwx0_10 : ∀ i : grid0.Coords, EltTy.bits .f32 = 32 ∨ (Rect.block (s := S10000x128) S200x128.size (cc0_transform_10 i) (hinb0_10 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x3_S200x3_1_0_0_1_n_n : DotDims S200x128 S128x3 S200x3 where
  lhsContracting := [1]
  rhsContracting := [0]
  lhsNonContracting := [0]
  rhsNonContracting := [1]
  lhsBatch := []
  rhsBatch := []
  wf := dot_S200x128_S128x3_S200x3_1_0_0_1_n_n_wf
def dot_S200x3_S3x3_S200x3_1_0_0_1_n_n : DotDims S200x3 S3x3 S200x3 where
  lhsContracting := [1]
  rhsContracting := [0]
  lhsNonContracting := [0]
  rhsNonContracting := [1]
  lhsBatch := []
  rhsBatch := []
  wf := dot_S200x3_S3x3_S200x3_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩
abbrev S10000x1 : Shape := ⟨2, ![10000, 1]⟩
abbrev S10000x3 : Shape := ⟨2, ![10000, 3]⟩
abbrev S10000 : Shape := ⟨1, ![10000]⟩

abbrev nBuf : Space → Nat
  | .hbm => 68
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S10000x3, .f32⟩
  | .hbm, ⟨28, _⟩ => ⟨S10000x3, .f32⟩
  | .hbm, ⟨29, _⟩ => ⟨S10000x3, .f32⟩
  | .hbm, ⟨30, _⟩ => ⟨S_, .f32⟩
  | .hbm, ⟨31, _⟩ => ⟨S10000x3, .f32⟩
  | .hbm, ⟨32, _⟩ => ⟨S10000x3, .f32⟩
  | .hbm, ⟨33, _⟩ => ⟨S_, .f32⟩
  | .hbm, ⟨34, _⟩ => ⟨S10000x3, .f32⟩
  | .hbm, ⟨35, _⟩ => ⟨S10000x3, .f32⟩
  | .hbm, ⟨36, _⟩ => ⟨S10000x3, .f32⟩
  | .hbm, ⟨37, _⟩ => ⟨S_, .f32⟩
  | .hbm, ⟨38, _⟩ => ⟨S10000x3, .f32⟩
  | .hbm, ⟨39, _⟩ => ⟨S10000x3, .f32⟩
  | .hbm, ⟨40, _⟩ => ⟨S_, .f32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x3, .f32⟩
  | .hbm, ⟨47, _⟩ => ⟨S10000x3, .f32⟩
  | .hbm, ⟨48, _⟩ => ⟨S10000x3, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x3, .f32⟩
  | .hbm, ⟨53, _⟩ => ⟨S10000x3, .f32⟩
  | .hbm, ⟨54, _⟩ => ⟨S10000x1, .f32⟩
  | .hbm, ⟨55, _⟩ => ⟨S10000x1, .f32⟩
  | .hbm, ⟨56, _⟩ => ⟨S10000x1, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  concatenates_S10000x1_S10000x1_S10000x1_S10000x3_d1 : Shape.Concatenates [S10000x1, S10000x1, S10000x1] S10000x3 1
  bcast_S_S10000x3 : S_.BroadcastsInDim S10000x3 (![] : Fin 0 → Fin S10000x3.rank)
  reducesTo_S10000x3_S10000_d1 : S10000x3.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  slices_S10000x3_S10000x1_0_0 : S10000x3.Slices ![0, 0] S10000x1
  slices_S10000x3_S10000x1_0_1 : S10000x3.Slices ![0, 1] S10000x1
  slices_S10000x3_S10000x1_0_2 : S10000x3.Slices ![0, 2] S10000x1
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x3_S3x3_S10000x3_1_0_0_1_n_n_wf : DotDims.WF S10000x3 S3x3 S10000x3 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

class Facts : Prop extends Facts₀ where

variable [Facts]
-- ==== Proof.KFrame.lean ====
/-
  The frame of the program: its run to the end, and what the run leaves in every array.

  @main is five host operations — a zero scalar, its 128×1 broadcast, and three concatenations that place each
  attention column in its own column of a 128×3 matrix of zeros — followed by ONE region on a grid of 50 points.
  At point t the region stages rows 200t … 200t+199 of the two adjacency matrices, keeps x, the three weight
  matrices, the three padded attention matrices and the 3×3 mixing matrix resident (they are fetched once), runs the
  body and writes the body's 200×128 block back to rows 200t … of the result.  The body loads every staged block
  whole, loads rows 200t … of the resident x a second time at an offset it computes from the point, and stores one
  value covering its output block; nothing else is written.  So: every array the region stages for reading ends as
  the region found it, the host prefix writes no argument array, and the result array is, block by block, the
  body's stored value of the blocks at that point (`out`).
-/
import proofs.«123373_g4337916969350_cont_sun_m_394_11_alg».proof.Proof.Gen.Kernel.Launch
import proofs.«123373_g4337916969350_cont_sun_m_394_11_alg».proof.Proof.Gen.Kernel.Skeleton
import proofs.«123373_g4337916969350_cont_sun_m_394_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
    (a resident window's block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every staged array at the
    library's written-back contents and every other buffer as the region found it leaves every ARGUMENT array as
    launched: a staged input is never written back, and the host prefix writes no argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats 0 c).arrAt_in 9 rfl _).trans ((hA c 9).trans (V_main_arg9 m c)))⟩) h

/-! ## The body's accesses -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rC : Rect S128x3 := Rect.unit (s := S128x3) ![0, 0] S128x3.size inb_S128x3_S128x3_0_0
abbrev rM : Rect S3x3 := Rect.unit (s := S3x3) ![0, 0] S3x3.size inb_S3x3_S3x3_0_0
abbrev rO : Rect S200x128 := Rect.unit (s := S200x128) ![0, 0] S200x128.size inb_S200x128_S200x128_0_0
/-- The body's second load of x: the 200 rows at the offset it computes from the grid point. -/
abbrev rXi (i : grid0.Coords) : Rect S10000x128 := Rect.unit (s := S10000x128) (k0_off1 i) S200x128.size (k0_off1_inb i)

/-! ## What the body leaves in the output window's buffer -/

/-- The output window's staging buffer after the body at grid coordinates `i`, from the input windows' blocks:
    its one store, of the body's value of the loaded blocks. -/
def out (i : grid0.Coords) (x0 : Vec F S200x10000 .f32) (x1 : Vec F S200x10000 .f32) (x2 : Vec F S10000x128 .f32) (x3 : Vec F S128x128 .f32) (x4 : Vec F S128x128 .f32) (x5 : Vec F S128x128 .f32) (x6 : Vec F S128x3 .f32) (x7 : Vec F S128x3 .f32) (x8 : Vec F S128x3 .f32) (x9 : Vec F S3x3 .f32) : Vec F S200x128 .f32 :=
  View.canon [⟨rO, k0_pay1 (k0_pay2 (View.ld x2 rX) (View.ld x0 rA) (View.ld x3 rW)) (k0_pay3 (View.ld x2 rX) (View.ld x1 rA) (View.ld x4 rW))
    (k0_pay4 (View.ld x2 (rXi i)) (View.ld x5 rW)) (k0_pay5 (View.ld x2 rX) (View.ld x0 rA) (View.ld x1 rA) (View.ld x3 rW) (View.ld x4 rW) (View.ld x6 rC) (View.ld x7 rC))
    (k0_pay6 (View.ld x8 rC)) (View.ld x9 rM)⟩]

/-- The store covers the buffer. -/
theorem cover_out (p0 : Vec F S200x128 .f32) (y : S200x128.Idx) :
    ∃ pc ∈ ([⟨rO, p0⟩] : List (View.Piece (Elt F) S200x128 .f32)), y ∈ pc.1.set :=
  View.cover_of_tiled [⟨rO, p0⟩] S200x128.size (by rfl) y

/-! ## The body's triple -/

set_option maxHeartbeats 4000000 in
/-- The body on whole staging memrefs, the inputs' at contents `xW` and the output's at anything, runs to the
    continuation holding the inputs' as they were and the output's at `out` of them. -/
theorem sound_kernel (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x3 .f32) (harg7 : arg7.IsWhole) (arg8 : Memref sig .tc .vmem S128x3 .f32) (harg8 : arg8.IsWhole) (arg9 : Memref sig .tc .vmem S128x3 .f32) (harg9 : arg9.IsWhole) (arg10 : Memref sig .tc .vmem S3x3 .f32) (harg10 : arg10.IsWhole) (arg11 : Memref sig .tc .vmem S200x128 .f32) (harg11 : arg11.IsWhole)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x3 .f32) (x7 : Vec F S128x3 .f32) (x8 : Vec F S128x3 .f32) (x9 : Vec F S3x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out i x0 x1 x2 x3 x4 x5 x6 x7 x8 x9)) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
  simp only [cc0__main_kernel_eq_skeleton]; unfold cc0__main_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover_out _)

/-! ## The pipeline's proof data -/

/-- The proof data on core `c`: the arrays as the region finds them; after the body at point `t` each input's
    buffer still at its block and the output's at `out` of the input blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out (grid0.coords t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at the library's
    written-back contents of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frm

end
-- ==== Proof.KIFrame.lean ====
/-
  The frame of the program: its run to the end, and what the run leaves in every array.

  @main is five host operations — a zero scalar, its 128×1 broadcast, and three concatenations that place each
  attention column in its own column of a 128×3 matrix of zeros — followed by ONE region on a grid of 50 points.
  At point t the region stages rows 200t … 200t+199 of the two adjacency matrices, keeps x, the three weight
  matrices, the three padded attention matrices and the 3×3 mixing matrix resident (they are fetched once), runs the
  body and writes the body's 200×128 block back to rows 200t … of the result.  The body loads every staged block
  whole, loads rows 200t … of the resident x a second time at an offset it computes from the point, and stores one
  value covering its output block; nothing else is written.  So: every array the region stages for reading ends as
  the region found it, the host prefix writes no argument array, and the result array is, block by block, the
  body's stored value of the blocks at that point (`out`).
-/
import proofs.«123373_g4337916969350_cont_sun_m_394_11_alg».proof.Proof.Gen.KernelIdeal.Launch
import proofs.«123373_g4337916969350_cont_sun_m_394_11_alg».proof.Proof.Gen.KernelIdeal.Skeleton
import proofs.«123373_g4337916969350_cont_sun_m_394_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
    (a resident window's block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every staged array at the
    library's written-back contents and every other buffer as the region found it leaves every ARGUMENT array as
    launched: a staged input is never written back, and the host prefix writes no argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats 0 c).arrAt_in 9 rfl _).trans ((hA c 9).trans (V_main_arg9 m c)))⟩) h

/-! ## The body's accesses -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rC : Rect S128x3 := Rect.unit (s := S128x3) ![0, 0] S128x3.size inb_S128x3_S128x3_0_0
abbrev rM : Rect S3x3 := Rect.unit (s := S3x3) ![0, 0] S3x3.size inb_S3x3_S3x3_0_0
abbrev rO : Rect S200x128 := Rect.unit (s := S200x128) ![0, 0] S200x128.size inb_S200x128_S200x128_0_0
/-- The body's second load of x: the 200 rows at the offset it computes from the grid point. -/
abbrev rXi (i : grid0.Coords) : Rect S10000x128 := Rect.unit (s := S10000x128) (k0_off1 i) S200x128.size (k0_off1_inb i)

/-! ## What the body leaves in the output window's buffer -/

/-- The output window's staging buffer after the body at grid coordinates `i`, from the input windows' blocks:
    its one store, of the body's value of the loaded blocks. -/
def out (i : grid0.Coords) (x0 : Vec F S200x10000 .f32) (x1 : Vec F S200x10000 .f32) (x2 : Vec F S10000x128 .f32) (x3 : Vec F S128x128 .f32) (x4 : Vec F S128x128 .f32) (x5 : Vec F S128x128 .f32) (x6 : Vec F S128x3 .f32) (x7 : Vec F S128x3 .f32) (x8 : Vec F S128x3 .f32) (x9 : Vec F S3x3 .f32) : Vec F S200x128 .f32 :=
  View.canon [⟨rO, k0_pay1 (k0_pay2 (View.ld x2 rX) (View.ld x0 rA) (View.ld x3 rW)) (k0_pay3 (View.ld x2 rX) (View.ld x1 rA) (View.ld x4 rW))
    (k0_pay4 (View.ld x2 (rXi i)) (View.ld x5 rW)) (k0_pay5 (View.ld x2 rX) (View.ld x0 rA) (View.ld x1 rA) (View.ld x3 rW) (View.ld x4 rW) (View.ld x6 rC) (View.ld x7 rC))
    (k0_pay6 (View.ld x8 rC)) (View.ld x9 rM)⟩]

/-- The store covers the buffer. -/
theorem cover_out (p0 : Vec F S200x128 .f32) (y : S200x128.Idx) :
    ∃ pc ∈ ([⟨rO, p0⟩] : List (View.Piece (Elt F) S200x128 .f32)), y ∈ pc.1.set :=
  View.cover_of_tiled [⟨rO, p0⟩] S200x128.size (by rfl) y

/-! ## The body's triple -/

set_option maxHeartbeats 4000000 in
/-- The body on whole staging memrefs, the inputs' at contents `xW` and the output's at anything, runs to the
    continuation holding the inputs' as they were and the output's at `out` of them. -/
theorem sound_kernel (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x3 .f32) (harg7 : arg7.IsWhole) (arg8 : Memref sig .tc .vmem S128x3 .f32) (harg8 : arg8.IsWhole) (arg9 : Memref sig .tc .vmem S128x3 .f32) (harg9 : arg9.IsWhole) (arg10 : Memref sig .tc .vmem S3x3 .f32) (harg10 : arg10.IsWhole) (arg11 : Memref sig .tc .vmem S200x128 .f32) (harg11 : arg11.IsWhole)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x3 .f32) (x7 : Vec F S128x3 .f32) (x8 : Vec F S128x3 .f32) (x9 : Vec F S3x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out i x0 x1 x2 x3 x4 x5 x6 x7 x8 x9)) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
  simp only [cc0__main_kernel_eq_skeleton]; unfold cc0__main_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover_out _)

/-! ## The pipeline's proof data -/

/-- The proof data on core `c`: the arrays as the region finds them; after the body at point `t` each input's
    buffer still at its block and the output's at `out` of the input blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out (grid0.coords t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at the library's
    written-back contents of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frm

end
-- ==== Proof.Spec.lean ====
/-
  The layer's value, row by row, on the extended reals.

  One output row r of the attention-mixed graph convolution depends on three 128-vectors — the rectified
  low-pass row relu((A_low · (x · W_low))[r, ·]), the rectified high-pass row relu((A_high · (x · W_high))[r, ·]) and the
  rectified identity row relu((x · W_mlp)[r, ·]) — through one function `rowOut`: each vector is scored against its
  attention vector, the three scores pass the logistic function, are mixed by the 3×3 matrix and divided by the
  temperature 3, the softmax over the three logits (shifted by their maximum) weighs the three vectors, and the
  weighted sum is scaled by 3.  The kernel computes the same rows with the products re-associated,
  (A · x) · W, and with the three scores taken as one sum of three products against zero-padded 128×3 matrices;
  both re-spellings are stated here (`adjRowK`, `featK`) beside the reference's (`adjRow`, `feat`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals, indexed as the printed programs index their rank-2 arrays. -/
abbrev Arr (a b : Nat) := (⟨2, ![a, b]⟩ : Shape).Idx → EReal

/-- The temperature and the final scale: the f32 literal 3.0, kept as its word. -/
abbrev three : EReal := Ideal.ofBits .f32 0x40400000#32
/-- The neutral element the row maximum starts from: the f32 literal -inf, kept as its word. -/
abbrev negInf : EReal := Ideal.ofBits .f32 0xFF800000#32

/-- Row of relu(A · (x · W)) for one adjacency row `a`: the reference's association. -/
def adjRow (a : Fin 10000 → EReal) (x : Arr 10000 128) (W : Arr 128 128) (o : Fin 128) : EReal :=
  max (∑ j : Fin 10000, a j * ∑ d : Fin 128, x (ix2 j d) * W (ix2 d o)) 0

/-- Row of relu((A · x) · W) for one adjacency row `a`: the kernel's association. -/
def adjRowK (a : Fin 10000 → EReal) (x : Arr 10000 128) (W : Arr 128 128) (o : Fin 128) : EReal :=
  max (∑ d : Fin 128, (∑ j : Fin 10000, a j * x (ix2 j d)) * W (ix2 d o)) 0

/-- Row of relu(x · W) for one feature row `xr`. -/
def mlpRow (xr : Fin 128 → EReal) (W : Arr 128 128) (o : Fin 128) : EReal :=
  max (∑ d : Fin 128, xr d * W (ix2 d o)) 0

/-- One branch's attention score: the 128-vector against the branch's attention column. -/
def score (h : Fin 128 → EReal) (a : Arr 128 1) : EReal := ∑ o : Fin 128, h o * a (ix2 o 0)

/-- The three scores of a row, as the reference concatenates them. -/
def feat (hl hh hm : Fin 128 → EReal) (a1 a2 a3 : Arr 128 1) (k : Fin 3) : EReal :=
  match k with
  | ⟨0, _⟩ => score hl a1
  | ⟨1, _⟩ => score hh a2
  | ⟨2, _⟩ => score hm a3

/-- The three scores of a row as the kernel takes them: one sum of three products against 128×3 matrices. -/
def featK (hl hh hm : Fin 128 → EReal) (c1 c2 c3 : Arr 128 3) (k : Fin 3) : EReal :=
  ((∑ o : Fin 128, hl o * c1 (ix2 o k)) + ∑ o : Fin 128, hh o * c2 (ix2 o k)) + ∑ o : Fin 128, hm o * c3 (ix2 o k)

/-- An attention column placed in column `k₀` of a 128×3 matrix of zeros. -/
def padCol (k₀ : Fin 3) (a : Arr 128 1) : Arr 128 3 := fun i => if (i 1).val = k₀.val then a (ix2 (i 0) 0) else 0

/-- The logits of a row: the logistic scores mixed by the 3×3 matrix, over the temperature. -/
def logit (s : Fin 3 → EReal) (av : Arr 3 3) (k : Fin 3) : EReal :=
  Ideal.div (∑ j : Fin 3, s j * av (ix2 j k)) three

/-- The maximum of the three logits, from -inf, as both programs take it. -/
def rowMax (l : Fin 3 → EReal) : EReal := max negInf ((Finset.univ : Finset (Fin 3)).fold max negInf l)

/-- The softmax weight of branch `k`. -/
def soft (l : Fin 3 → EReal) (k : Fin 3) : EReal :=
  Ideal.div (Ideal.exp (l k - rowMax l)) (∑ k' : Fin 3, Ideal.exp (l k' - rowMax l))

/-- The weighted sum of the three branch values, scaled by 3. -/
def mix (w : Fin 3 → EReal) (vl vh vm : EReal) : EReal := three * ((w 0 * vl + w 1 * vh) + w 2 * vm)

/-- One output row from its three rectified branch rows and the row's three scores `f`. -/
def rowOutOf (f : Fin 3 → EReal) (hl hh hm : Fin 128 → EReal) (av : Arr 3 3) (o : Fin 128) : EReal :=
  mix (soft (logit (fun k => Ideal.logistic (f k)) av)) (hl o) (hh o) (hm o)

/-- One output row, the reference's spelling of the scores. -/
def rowOut (hl hh hm : Fin 128 → EReal) (a1 a2 a3 : Arr 128 1) (av : Arr 3 3) (o : Fin 128) : EReal :=
  rowOutOf (feat hl hh hm a1 a2 a3) hl hh hm av o

/-- One output row, the kernel's spelling of the scores. -/
def rowOutK (hl hh hm : Fin 128 → EReal) (c1 c2 c3 : Arr 128 3) (av : Arr 3 3) (o : Fin 128) : EReal :=
  rowOutOf (featK hl hh hm c1 c2 c3) hl hh hm av o

/-- The whole result: row `i 0`, column `i 1`. -/
def G (x : Arr 10000 128) (A1 A2 : Arr 10000 10000) (W1 W2 W3 : Arr 128 128) (a1 a2 a3 : Arr 128 1) (av : Arr 3 3) :
    Arr 10000 128 := fun i =>
  rowOut (adjRow (fun j => A1 (ix2 (i 0) j)) x W1) (adjRow (fun j => A2 (ix2 (i 0) j)) x W2)
    (mlpRow (fun d => x (ix2 (i 0) d)) W3) a1 a2 a3 av (i 1)

end Cert.Spec

end
-- ==== Proof.KernelRow.lean ====
/-
  The kernel body's stored value at one entry of its 200×128 block: row p of the block is the row-wise value
  `Cert.Spec.rowOutK` of row p of the two adjacency panels (products in the kernel's association), of row p of the
  block's own rows of x, and of the three zero-padded attention matrices.
-/
import proofs.«123373_g4337916969350_cont_sun_m_394_11_alg».proof.Proof.Spec
import proofs.«123373_g4337916969350_cont_sun_m_394_11_alg».proof.Proof.Gen.KernelIdeal.Skeleton
import Idealize.ShloMosaic.Lib.Pipeline.Value
import Idealize.ShloMosaic.Lib.ValueLayout

noncomputable section

namespace Cert.KernelIdeal.RowValue

open Idealize.ShloMosaic Idealize.ShloMosaic.ValueIdx Cert.KernelIdeal Cert.KernelIdeal.Gen

/-! ### The product S200x10000 · S10000x128 read at an entry -/

theorem lhs_adj_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_adj_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_adj_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_adj_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Into the zero accumulator the product at entry (a, b) is the sum over the contracted coordinate. -/
theorem matmul_adj_apply (l : FVec Ideal S200x10000 .f32) (r : FVec Ideal S10000x128 .f32) (a : Fin 200) (b : Fin 128) :
    matmul dot_S200x10000_S10000x128_S200x128_1_0_0_1_n_n none l r (constant (F := Ideal) S200x128 .f32 0x00000000#32) (ix2 a b)
      = ∑ k : Fin 10000, l (ix2 a k) * r (ix2 k b) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 a b) ((contrEquiv1 dot_S200x10000_S10000x128_S200x128_1_0_0_1_n_n 10000 rfl rfl).symm k) = ix2 a k := funext fun x => Fin.ext (by
    match x with
    | ⟨0, _⟩ => exact lhs_adj_0 _ _
    | ⟨1, _⟩ => exact (lhs_adj_1 _ _).trans hk)
  have er : dot_S200x10000_S10000x128_S200x128_1_0_0_1_n_n.rhsIdx (ix2 a b) ((contrEquiv1 dot_S200x10000_S10000x128_S200x128_1_0_0_1_n_n 10000 rfl rfl).symm k) = ix2 k b := funext fun x => Fin.ext (by
    match x with
    | ⟨0, _⟩ => exact (rhs_adj_0 _ _).trans hk
    | ⟨1, _⟩ => exact rhs_adj_1 _ _)
  rw [el, er]

/-! ### The product S200x128 · S128x128 read at an entry -/

theorem lhs_w_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_w_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_w_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_w_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- Into the zero accumulator the product at entry (a, b) is the sum over the contracted coordinate. -/
theorem matmul_w_apply (l : FVec Ideal S200x128 .f32) (r : FVec Ideal S128x128 .f32) (a : Fin 200) (b : Fin 128) :
    matmul dot_S200x128_S128x128_S200x128_1_0_0_1_n_n none l r (constant (F := Ideal) S200x128 .f32 0x00000000#32) (ix2 a b)
      = ∑ k : Fin 128, l (ix2 a k) * r (ix2 k b) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 a b) ((contrEquiv1 dot_S200x128_S128x128_S200x128_1_0_0_1_n_n 128 rfl rfl).symm k) = ix2 a k := funext fun x => Fin.ext (by
    match x with
    | ⟨0, _⟩ => exact lhs_w_0 _ _
    | ⟨1, _⟩ => exact (lhs_w_1 _ _).trans hk)
  have er : dot_S200x128_S128x128_S200x128_1_0_0_1_n_n.rhsIdx (ix2 a b) ((contrEquiv1 dot_S200x128_S128x128_S200x128_1_0_0_1_n_n 128 rfl rfl).symm k) = ix2 k b := funext fun x => Fin.ext (by
    match x with
    | ⟨0, _⟩ => exact (rhs_w_0 _ _).trans hk
    | ⟨1, _⟩ => exact rhs_w_1 _ _)
  rw [el, er]

/-! ### The product S200x128 · S128x3 read at an entry -/

theorem lhs_att_0 (i : S200x3.Idx) (q : dot_S200x128_S128x3_S200x3_1_0_0_1_n_n.contr.Idx) :
    (dot_S200x128_S128x3_S200x3_1_0_0_1_n_n.lhsIdx i q 0).val = (i 0).val := by
  unfold DotDims.lhsIdx
  rw [dif_neg (show ¬(0 : Fin S200x128.rank) ∈ dot_S200x128_S128x3_S200x3_1_0_0_1_n_n.lhsBatch by decide), dif_pos (show (0 : Fin S200x128.rank) ∈ dot_S200x128_S128x3_S200x3_1_0_0_1_n_n.lhsNonContracting by decide)]
  rfl
theorem lhs_att_1 (i : S200x3.Idx) (q : dot_S200x128_S128x3_S200x3_1_0_0_1_n_n.contr.Idx) :
    (dot_S200x128_S128x3_S200x3_1_0_0_1_n_n.lhsIdx i q 1).val = (q ⟨0, by decide⟩).val :=
  dot_S200x128_S128x3_S200x3_1_0_0_1_n_n.lhsIdx_val_of_single rfl i q
theorem rhs_att_0 (i : S200x3.Idx) (q : dot_S200x128_S128x3_S200x3_1_0_0_1_n_n.contr.Idx) :
    (dot_S200x128_S128x3_S200x3_1_0_0_1_n_n.rhsIdx i q 0).val = (q ⟨0, by decide⟩).val :=
  dot_S200x128_S128x3_S200x3_1_0_0_1_n_n.rhsIdx_val_of_single rfl i q
theorem rhs_att_1 (i : S200x3.Idx) (q : dot_S200x128_S128x3_S200x3_1_0_0_1_n_n.contr.Idx) :
    (dot_S200x128_S128x3_S200x3_1_0_0_1_n_n.rhsIdx i q 1).val = (i 1).val := by
  unfold DotDims.rhsIdx
  rw [dif_neg (show ¬(1 : Fin S128x3.rank) ∈ dot_S200x128_S128x3_S200x3_1_0_0_1_n_n.rhsBatch by decide), dif_pos (show (1 : Fin S128x3.rank) ∈ dot_S200x128_S128x3_S200x3_1_0_0_1_n_n.rhsNonContracting by decide)]
  rfl

/-- Into the zero accumulator the product at entry (a, b) is the sum over the contracted coordinate. -/
theorem matmul_att_apply (l : FVec Ideal S200x128 .f32) (r : FVec Ideal S128x3 .f32) (a : Fin 200) (b : Fin 3) :
    matmul dot_S200x128_S128x3_S200x3_1_0_0_1_n_n none l r (constant (F := Ideal) S200x3 .f32 0x00000000#32) (ix2 a b)
      = ∑ k : Fin 128, l (ix2 a k) * r (ix2 k b) := by
  simp only [matmul]
  rw [Ideal.matmul_constant_zero_apply, ← Equiv.sum_comp (contrEquiv1 dot_S200x128_S128x3_S200x3_1_0_0_1_n_n 128 rfl rfl).symm]
  refine Finset.sum_congr rfl fun k _ => ?_
  have hk := contrEquiv1_symm_val dot_S200x128_S128x3_S200x3_1_0_0_1_n_n 128 rfl rfl k
  have el : dot_S200x128_S128x3_S200x3_1_0_0_1_n_n.lhsIdx (ix2 a b) ((contrEquiv1 dot_S200x128_S128x3_S200x3_1_0_0_1_n_n 128 rfl rfl).symm k) = ix2 a k := funext fun x => Fin.ext (by
    match x with
    | ⟨0, _⟩ => exact lhs_att_0 _ _
    | ⟨1, _⟩ => exact (lhs_att_1 _ _).trans hk)
  have er : dot_S200x128_S128x3_S200x3_1_0_0_1_n_n.rhsIdx (ix2 a b) ((contrEquiv1 dot_S200x128_S128x3_S200x3_1_0_0_1_n_n 128 rfl rfl).symm k) = ix2 k b := funext fun x => Fin.ext (by
    match x with
    | ⟨0, _⟩ => exact (rhs_att_0 _ _).trans hk
    | ⟨1, _⟩ => exact rhs_att_1 _ _)
  rw [el, er]

/-! ### The product S200x3 · S3x3 read at an entry -/

theorem lhs_mixm_0 (i : S200x3.Idx) (q : dot_S200x3_S3x3_S200x3_1_0_0_1_n_n.contr.Idx) :
    (dot_S200x3_S3x3_S200x3_1_0_0_1_n_n.lhsIdx i q 0).val = (i 0).val := by
  unfold DotDims.lhsIdx
  rw [dif_neg (show ¬(0 : Fin S200x3.rank) ∈ dot_S200x3_S3x3_S200x3_1_0_0_1_n_n.lhsBatch by decide), dif_pos (show (0 : Fin S200x3.rank) ∈ dot_S200x3_S3x3_S200x3_1_0_0_1_n_n.lhsNonContracting by decide)]
  rfl
theorem lhs_mixm_1 (i : S200x3.Idx) (q : dot_S200x3_S3x3_S200x3_1_0_0_1_n_n.contr.Idx) :
    (dot_S200x3_S3x3_S200x3_1_0_0_1_n_n.lhsIdx i q 1).val = (q ⟨0, by decide⟩).val :=
  dot_S200x3_S3x3_S200x3_1_0_0_1_n_n.lhsIdx_val_of_single rfl i q
theorem rhs_mixm_0 (i : S200x3.Idx) (q : dot_S200x3_S3x3_S200x3_1_0_0_1_n_n.contr.Idx) :
    (dot_S200x3_S3x3_S200x3_1_0_0_1_n_n.rhsIdx i q 0).val = (q ⟨0, by decide⟩).val :=
  dot_S200x3_S3x3_S200x3_1_0_0_1_n_n.rhsIdx_val_of_single rfl i q
theorem rhs_mixm_1 (i : S200x3.Idx) (q : dot_S200x3_S3x3_S200x3_1_0_0_1_n_n.contr.Idx) :
    (dot_S200x3_S3x3_S200x3_1_0_0_1_n_n.rhsIdx i q 1).val = (i 1).val := by
  unfold DotDims.rhsIdx
  rw [dif_neg (show ¬(1 : Fin S3x3.rank) ∈ dot_S200x3_S3x3_S200x3_1_0_0_1_n_n.rhsBatch by decide), dif_pos (show (1 : Fin S3x3.rank) ∈ dot_S200x3_S3x3_S200x3_1_0_0_1_n_n.rhsNonContracting by decide)]
  rfl

/-- Into the zero accumulator the product at entry (a, b) is the sum over the contracted coordinate. -/
theorem matmul_mixm_apply (l : FVec Ideal S200x3 .f32) (r : FVec Ideal S3x3 .f32) (a : Fin 200) (b : Fin 3) :
    matmul dot_S200x3_S3x3_S200x3_1_0_0_1_n_n none l r (constant (F := Ideal) S200x3 .f32 0x00000000#32) (ix2 a b)
      = ∑ k : Fin 3, l (ix2 a k) * r (ix2 k b) := by
  simp only [matmul]
  rw [Ideal.matmul_constant_zero_apply, ← Equiv.sum_comp (contrEquiv1 dot_S200x3_S3x3_S200x3_1_0_0_1_n_n 3 rfl rfl).symm]
  refine Finset.sum_congr rfl fun k _ => ?_
  have hk := contrEquiv1_symm_val dot_S200x3_S3x3_S200x3_1_0_0_1_n_n 3 rfl rfl k
  have el : dot_S200x3_S3x3_S200x3_1_0_0_1_n_n.lhsIdx (ix2 a b) ((contrEquiv1 dot_S200x3_S3x3_S200x3_1_0_0_1_n_n 3 rfl rfl).symm k) = ix2 a k := funext fun x => Fin.ext (by
    match x with
    | ⟨0, _⟩ => exact lhs_mixm_0 _ _
    | ⟨1, _⟩ => exact (lhs_mixm_1 _ _).trans hk)
  have er : dot_S200x3_S3x3_S200x3_1_0_0_1_n_n.rhsIdx (ix2 a b) ((contrEquiv1 dot_S200x3_S3x3_S200x3_1_0_0_1_n_n 3 rfl rfl).symm k) = ix2 k b := funext fun x => Fin.ext (by
    match x with
    | ⟨0, _⟩ => exact (rhs_mixm_0 _ _).trans hk
    | ⟨1, _⟩ => exact rhs_mixm_1 _ _)
  rw [el, er]

/-! ### The three rectified branch rows, and the scores the first two contribute -/

/-- The zero word is the extended real zero, as the scalar a broadcast splats. -/
theorem scalar_zero : (Scalar.ofBits (F := Ideal) .f32 0x00000000#32 : Ideal .f32) = 0 := Ideal.ofBits_zero_f32

/-- relu((A · x) · W) at entry (p, o), for the panel `a` of adjacency rows. -/
theorem adj_branch_apply (x : FVec Ideal S10000x128 .f32) (a : FVec Ideal S200x10000 .f32) (W : FVec Ideal S128x128 .f32)
    (p : Fin 200) (o : Fin 128) :
    maximumf (matmul dot_S200x128_S128x128_S200x128_1_0_0_1_n_n none
        (matmul dot_S200x10000_S10000x128_S200x128_1_0_0_1_n_n none a x (constant (F := Ideal) S200x128 .f32 0x00000000#32)) W
        (constant (F := Ideal) S200x128 .f32 0x00000000#32))
      (broadcast S200x128 (Scalar.ofBits (F := Ideal) .f32 0x00000000#32)) (ix2 p o)
      = Cert.Spec.adjRowK (fun j => a (ix2 p j)) x W o := by
  refine (maximumf_apply _ _ _).trans ?_
  unfold Cert.Spec.adjRowK
  refine congrArg₂ max ?_ scalar_zero
  refine (matmul_w_apply _ W p o).trans (Finset.sum_congr rfl fun d _ => ?_)
  exact congrArg (· * W (ix2 d o)) (matmul_adj_apply a x p d)

theorem pay2_apply (v0 : Vec Ideal S10000x128 .f32) (v1 : Vec Ideal S200x10000 .f32) (v5 : Vec Ideal S128x128 .f32)
    (p : Fin 200) (o : Fin 128) :
    k0_pay2 (F := Ideal) v0 v1 v5 (ix2 p o) = Cert.Spec.adjRowK (fun j => v1 (ix2 p j)) v0 v5 o :=
  adj_branch_apply v0 v1 v5 p o

theorem pay3_apply (v0 : Vec Ideal S10000x128 .f32) (v3 : Vec Ideal S200x10000 .f32) (v9 : Vec Ideal S128x128 .f32)
    (p : Fin 200) (o : Fin 128) :
    k0_pay3 (F := Ideal) v0 v3 v9 (ix2 p o) = Cert.Spec.adjRowK (fun j => v3 (ix2 p j)) v0 v9 o :=
  adj_branch_apply v0 v3 v9 p o

/-- relu(x · W) at entry (p, o), for the block's own rows of x. -/
theorem pay4_apply (v15 : Vec Ideal S200x128 .f32) (v16 : Vec Ideal S128x128 .f32) (p : Fin 200) (o : Fin 128) :
    k0_pay4 (F := Ideal) v15 v16 (ix2 p o) = Cert.Spec.mlpRow (fun d => v15 (ix2 p d)) v16 o := by
  unfold k0_pay4 Cert.Spec.mlpRow
  refine (maximumf_apply _ _ _).trans ?_
  exact congrArg₂ max (matmul_w_apply v15 v16 p o) scalar_zero

/-- The scores of the two adjacency branches, summed: the first two sums of the kernel's three. -/
theorem pay5_apply (v0 : Vec Ideal S10000x128 .f32) (v1 v3 : Vec Ideal S200x10000 .f32) (v5 v9 : Vec Ideal S128x128 .f32)
    (v20 v23 : Vec Ideal S128x3 .f32) (p : Fin 200) (k : Fin 3) :
    k0_pay5 (F := Ideal) v0 v1 v3 v5 v9 v20 v23 (ix2 p k)
      = (∑ d : Fin 128, k0_pay2 (F := Ideal) v0 v1 v5 (ix2 p d) * v20 (ix2 d k))
        + ∑ d : Fin 128, k0_pay3 (F := Ideal) v0 v3 v9 (ix2 p d) * v23 (ix2 d k) := by
  unfold k0_pay5
  refine (addf_apply _ _ _).trans ?_
  refine congrArg₂ (· + ·) ?_ ?_
  · refine (matmul_att_apply _ _ p k).trans (Finset.sum_congr rfl fun d _ => ?_)
    exact congrArg (k0_pay2 (F := Ideal) v0 v1 v5 (ix2 p d) * ·) (congrFun (shapeCast_self v20 _) (ix2 d k))
  · refine (matmul_att_apply _ _ p k).trans (Finset.sum_congr rfl fun d _ => ?_)
    exact congrArg (k0_pay3 (F := Ideal) v0 v3 v9 (ix2 p d) * ·) (congrFun (shapeCast_self v23 _) (ix2 d k))

/-- A shape cast to the same shape changes nothing. -/
theorem pay6_eq (v27 : Vec Ideal S128x3 .f32) : k0_pay6 (F := Ideal) v27 = v27 := shapeCast_self v27 _

/-! ### The layout operations of the row softmax, read at an entry -/

/-- A column [200], cast to [200, 1] and broadcast along a second axis, reads at (p, k) the column at p. -/
theorem column_bcast_apply {α : Type} {n : Nat} (y : S200.Idx → α) (hb : S200x1.Broadcasts ⟨2, ![200, n]⟩) (p : Fin 200) (k : Fin n) :
    broadcastTo ⟨2, ![200, n]⟩ (shapeCast S200x1 y shapeCasts_S200_S200x1) hb (ix2 p k) = y (ix1 p) := by
  refine (broadcastTo_apply _ hb (ix2 p k) (ix2 p (0 : Fin 1)) fun ax => ?_).trans ?_
  · match ax with
    | ⟨0, _⟩ => rfl
    | ⟨1, _⟩ => rfl
  · refine shapeCast_apply y shapeCasts_S200_S200x1 _ _ ?_
    rw [Shape.rowMajor_val_one, Shape.rowMajor_val_two]
    show p.val = p.val * 1 + 0
    omega

/-- Column c of a [200, 3] array, broadcast along the 128 lanes, reads at (p, o) the array at (p, c). -/
theorem slice_bcast_apply {α : Type} (z : S200x3.Idx → α) (c : Fin 3) (hs : S200x3.Slices ![0, c.val] S200x1) (p : Fin 200) (o : Fin 128) :
    broadcastTo S200x128 (extractStridedSlice S200x1 ![0, c.val] z hs) broadcasts_S200x1_S200x128 (ix2 p o) = z (ix2 p c) := by
  refine (broadcastTo_apply _ broadcasts_S200x1_S200x128 (ix2 p o) (ix2 p (0 : Fin 1)) fun ax => ?_).trans ?_
  · match ax with
    | ⟨0, _⟩ => rfl
    | ⟨1, _⟩ => rfl
  · exact slice2_axis1_apply c.val z hs p (0 : Fin 1) c rfl

/-- The index over row p with lane k inserted is (p, k). -/
theorem lift_row (p : Fin 200) (k : Fin 3) : reduces_S200x3_S200.lift (ix1 p) k = ix2 p k :=
  funext fun c => Fin.ext (by
    match c with
    | ⟨0, _⟩ => rfl
    | ⟨1, _⟩ => rfl)

/-- The row maximum from -inf: the lane reduction over the three entries of row p, then the maximum with the -inf splat. -/
theorem rowmax_apply (x : FVec Ideal S200x3 .f32) (p : Fin 200) :
    maximumf (broadcast S200 (Scalar.ofBits (F := Ideal) .f32 0xFF800000#32))
      (multiReduction (F := Ideal) .maximumf [1] S200 x 0xFF800000#32 reduces_S200x3_S200 (.inl rfl) rfl) (ix1 p)
      = Cert.Spec.rowMax (fun k => x (ix2 p k)) := by
  refine (maximumf_apply _ _ _).trans ?_
  unfold Cert.Spec.rowMax
  refine congrArg₂ max rfl ?_
  refine (Ideal.multiReduction_maximumf_single x 0xFF800000#32 reduces_S200x3_S200 (.inl rfl) rfl (ix1 p)).trans ?_
  have hl : (x ∘ reduces_S200x3_S200.lift (ix1 p)) = fun k : Fin 3 => x (ix2 p k) := funext fun k => congrArg x (lift_row p k)
  rw [hl]
  rfl

/-- The row sum: the lane reduction over the three entries of row p. -/
theorem rowsum_apply (x : FVec Ideal S200x3 .f32) (p : Fin 200) :
    multiReduction (F := Ideal) .add [1] S200 x 0x00000000#32 reduces_S200x3_S200 (.inl rfl) rfl (ix1 p) = ∑ k : Fin 3, x (ix2 p k) := by
  refine (Ideal.multiReduction_add_single x 0x00000000#32 reduces_S200x3_S200 (.inl rfl) rfl (ix1 p)).trans ?_
  exact Finset.sum_congr rfl fun k _ => congrArg x (lift_row p k)

/-! ### The stored value in three stages: the logits, the softmax weights, the weighted sum -/

/-- The logits: the third branch's scores joined to the first two, the logistic function, the 3×3 mixing product, over 3. -/
def logitsV (hm : FVec Ideal S200x128 .f32) (s12 : FVec Ideal S200x3 .f32) (c3 : FVec Ideal S128x3 .f32)
    (av : FVec Ideal S3x3 .f32) : FVec Ideal S200x3 .f32 :=
  divf (matmul dot_S200x3_S3x3_S200x3_1_0_0_1_n_n none
      (logistic (addf s12 (matmul dot_S200x128_S128x3_S200x3_1_0_0_1_n_n none hm c3 (constant (F := Ideal) S200x3 .f32 0x00000000#32))))
      av (constant (F := Ideal) S200x3 .f32 0x00000000#32))
    (broadcast S200x3 (Scalar.ofBits (F := Ideal) .f32 0x40400000#32))

/-- The exponentials of the logits shifted by their row maximum. -/
def shiftV (l : FVec Ideal S200x3 .f32) : FVec Ideal S200x3 .f32 :=
  exp (subf l (broadcastTo S200x3 (shapeCast S200x1
    (maximumf (broadcast S200 (Scalar.ofBits (F := Ideal) .f32 0xFF800000#32))
      (multiReduction (F := Ideal) .maximumf [1] S200 l 0xFF800000#32 reduces_S200x3_S200 (.inl rfl) rfl))
    shapeCasts_S200_S200x1) broadcasts_S200x1_S200x3))

/-- The softmax weights: each exponential over its row's sum. -/
def softV (l : FVec Ideal S200x3 .f32) : FVec Ideal S200x3 .f32 :=
  divf (shiftV l) (broadcastTo S200x3 (shapeCast S200x1
    (multiReduction (F := Ideal) .add [1] S200 (shiftV l) 0x00000000#32 reduces_S200x3_S200 (.inl rfl) rfl)
    shapeCasts_S200_S200x1) broadcasts_S200x1_S200x3)

/-- The three branch values weighted by the three columns of `w`, summed and scaled by 3. -/
def mixV (w : FVec Ideal S200x3 .f32) (v8 v12 v19 : FVec Ideal S200x128 .f32) : FVec Ideal S200x128 .f32 :=
  mulf (broadcast S200x128 (Scalar.ofBits (F := Ideal) .f32 0x40400000#32))
    (addf (addf
        (mulf (broadcastTo S200x128 (extractStridedSlice S200x1 ![0, 0] w slices_S200x3_o0_0_S200x1) broadcasts_S200x1_S200x128) v8)
        (mulf (broadcastTo S200x128 (extractStridedSlice S200x1 ![0, 1] w slices_S200x3_o0_1_S200x1) broadcasts_S200x1_S200x128) v12))
      (mulf (broadcastTo S200x128 (extractStridedSlice S200x1 ![0, 2] w slices_S200x3_o0_2_S200x1) broadcasts_S200x1_S200x128) v19))

/-- The stored payload is the three stages composed. -/
theorem pay1_eq (v8 v12 v19 : FVec Ideal S200x128 .f32) (v26 : FVec Ideal S200x3 .f32) (v28 : FVec Ideal S128x3 .f32)
    (v32 : FVec Ideal S3x3 .f32) :
    k0_pay1 (F := Ideal) v8 v12 v19 v26 v28 v32 = mixV (softV (logitsV v19 v26 v28 v32)) v8 v12 v19 := rfl

theorem logitsV_apply (hm : FVec Ideal S200x128 .f32) (s12 : FVec Ideal S200x3 .f32) (c3 : FVec Ideal S128x3 .f32)
    (av : FVec Ideal S3x3 .f32) (p : Fin 200) (k : Fin 3) :
    logitsV hm s12 c3 av (ix2 p k)
      = Cert.Spec.logit (fun j => Ideal.logistic (s12 (ix2 p j) + ∑ d : Fin 128, hm (ix2 p d) * c3 (ix2 d j))) av k := by
  unfold logitsV Cert.Spec.logit
  refine (divf_apply _ _ _).trans ?_
  refine congrArg₂ Ideal.div ?_ rfl
  refine (matmul_mixm_apply _ av p k).trans (Finset.sum_congr rfl fun j _ => ?_)
  refine congrArg (· * av (ix2 j k)) ?_
  exact congrArg (fun t => Ideal.logistic (s12 (ix2 p j) + t)) (matmul_att_apply hm c3 p j)

theorem shiftV_apply (l : FVec Ideal S200x3 .f32) (p : Fin 200) (k : Fin 3) :
    shiftV l (ix2 p k) = Ideal.exp (l (ix2 p k) - Cert.Spec.rowMax (fun j => l (ix2 p j))) := by
  unfold shiftV
  exact congrArg (fun t => Ideal.exp (l (ix2 p k) - t)) ((column_bcast_apply _ _ p k).trans (rowmax_apply l p))

theorem softV_apply (l : FVec Ideal S200x3 .f32) (p : Fin 200) (k : Fin 3) :
    softV l (ix2 p k) = Cert.Spec.soft (fun j => l (ix2 p j)) k := by
  unfold softV Cert.Spec.soft
  refine (divf_apply _ _ _).trans ?_
  refine congrArg₂ Ideal.div (shiftV_apply l p k) ?_
  refine (column_bcast_apply _ _ p k).trans ?_
  refine (rowsum_apply _ p).trans ?_
  exact Finset.sum_congr rfl fun j _ => shiftV_apply l p j

theorem mixV_apply (w : FVec Ideal S200x3 .f32) (v8 v12 v19 : FVec Ideal S200x128 .f32) (p : Fin 200) (o : Fin 128) :
    mixV w v8 v12 v19 (ix2 p o)
      = Cert.Spec.mix (fun k => w (ix2 p k)) (v8 (ix2 p o)) (v12 (ix2 p o)) (v19 (ix2 p o)) := by
  unfold mixV Cert.Spec.mix
  refine (mulf_apply _ _ _).trans ?_
  refine congrArg₂ (· * ·) rfl ?_
  refine (addf_apply _ _ _).trans (congrArg₂ (· + ·) ((addf_apply _ _ _).trans (congrArg₂ (· + ·) ?_ ?_)) ?_)
  · exact (mulf_apply _ _ _).trans (congrArg (· * v8 (ix2 p o)) (slice_bcast_apply w (0 : Fin 3) slices_S200x3_o0_0_S200x1 p o))
  · exact (mulf_apply _ _ _).trans (congrArg (· * v12 (ix2 p o)) (slice_bcast_apply w (1 : Fin 3) slices_S200x3_o0_1_S200x1 p o))
  · exact (mulf_apply _ _ _).trans (congrArg (· * v19 (ix2 p o)) (slice_bcast_apply w (2 : Fin 3) slices_S200x3_o0_2_S200x1 p o))

/-- The stored payload at entry (p, o) of the block, from the values the body loads. -/
theorem pay_row (v0 : Vec Ideal S10000x128 .f32) (v1 v3 : Vec Ideal S200x10000 .f32) (v5 v9 v16 : Vec Ideal S128x128 .f32)
    (v15 : Vec Ideal S200x128 .f32) (v20 v23 v27 : Vec Ideal S128x3 .f32) (v32 : Vec Ideal S3x3 .f32) (p : Fin 200) (o : Fin 128) :
    k0_pay1 (F := Ideal) (k0_pay2 v0 v1 v5) (k0_pay3 v0 v3 v9) (k0_pay4 v15 v16) (k0_pay5 v0 v1 v3 v5 v9 v20 v23) (k0_pay6 v27) v32 (ix2 p o)
      = Cert.Spec.rowOutK (Cert.Spec.adjRowK (fun j => v1 (ix2 p j)) v0 v5) (Cert.Spec.adjRowK (fun j => v3 (ix2 p j)) v0 v9)
          (Cert.Spec.mlpRow (fun d => v15 (ix2 p d)) v16) v20 v23 v27 v32 o := by
  rw [pay1_eq]
  refine (mixV_apply _ _ _ _ p o).trans ?_
  unfold Cert.Spec.rowOutK Cert.Spec.rowOutOf
  have hf : ∀ k : Fin 3, k0_pay5 (F := Ideal) v0 v1 v3 v5 v9 v20 v23 (ix2 p k)
        + ∑ d : Fin 128, k0_pay4 (F := Ideal) v15 v16 (ix2 p d) * k0_pay6 (F := Ideal) v27 (ix2 d k)
      = Cert.Spec.featK (Cert.Spec.adjRowK (fun j => v1 (ix2 p j)) v0 v5) (Cert.Spec.adjRowK (fun j => v3 (ix2 p j)) v0 v9)
          (Cert.Spec.mlpRow (fun d => v15 (ix2 p d)) v16) v20 v23 v27 k := fun k => by
    unfold Cert.Spec.featK
    rw [pay5_apply, pay6_eq]
    simp only [pay2_apply, pay3_apply, pay4_apply]
  have hw : (fun k => softV (logitsV (k0_pay4 (F := Ideal) v15 v16) (k0_pay5 (F := Ideal) v0 v1 v3 v5 v9 v20 v23)
        (k0_pay6 (F := Ideal) v27) v32) (ix2 p k))
      = Cert.Spec.soft (Cert.Spec.logit (fun k => Ideal.logistic (Cert.Spec.featK
          (Cert.Spec.adjRowK (fun j => v1 (ix2 p j)) v0 v5) (Cert.Spec.adjRowK (fun j => v3 (ix2 p j)) v0 v9)
          (Cert.Spec.mlpRow (fun d => v15 (ix2 p d)) v16) v20 v23 v27 k)) v32) := funext fun k => by
    refine (softV_apply _ p k).trans ?_
    refine congrArg (fun l => Cert.Spec.soft l k) (funext fun j => ?_)
    refine (logitsV_apply _ _ _ _ p j).trans ?_
    exact congrArg (fun s => Cert.Spec.logit s v32 j) (funext fun i => congrArg Ideal.logistic (hf i))
  rw [hw, pay2_apply, pay3_apply, pay4_apply]

end Cert.KernelIdeal.RowValue

end
-- ==== Proof.SpecLaws.lean ====
/-
  Two laws between the kernel's and the reference's spellings of a row (Proof/Spec.lean):
  matrix products re-associate when every entry is a real number, and the three attention scores taken as one sum of
  products against zero-padded 128×3 matrices are the three separate scores.
-/
import proofs.«123373_g4337916969350_cont_sun_m_394_11_alg».proof.Proof.Spec

noncomputable section

namespace Cert.Spec

open Idealize.ShloMosaic Idealize.ShloMosaic.ValueIdx

/-- The f32 literal 1.0 is the extended real 1. -/
theorem ofBits_one_f32 : Ideal.ofBits .f32 0x3F800000#32 = 1 := by
  simp [Ideal.ofBits, Ideal.ieee]
  rw [← EReal.coe_mul]
  norm_num

/-- The coercion of the reals into the extended reals passes through a finite sum. -/
private theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- (A · x) · W = A · (x · W), row by row, when the entries are real numbers. -/
theorem adjRowK_eq (a : Fin 10000 → EReal) (x : Arr 10000 128) (W : Arr 128 128) (o : Fin 128)
    (ha : ∀ j, ∃ r : ℝ, a j = (r : EReal)) (hx : ∀ i, ∃ r : ℝ, x i = (r : EReal)) (hW : ∀ i, ∃ r : ℝ, W i = (r : EReal)) :
    adjRowK a x W o = adjRow a x W o := by
  choose ar har using ha
  choose xr hxr using hx
  choose Wr hWr using hW
  obtain rfl : a = fun j => ((ar j : ℝ) : EReal) := funext har
  obtain rfl : x = fun i => ((xr i : ℝ) : EReal) := funext hxr
  obtain rfl : W = fun i => ((Wr i : ℝ) : EReal) := funext hWr
  -- in the reals: distribute both products over the inner sums, exchange the two sums, re-associate each term
  have key : (∑ d : Fin 128, (∑ j : Fin 10000, ar j * xr (ix2 j d)) * Wr (ix2 d o))
      = ∑ j : Fin 10000, ar j * ∑ d : Fin 128, xr (ix2 j d) * Wr (ix2 d o) := by
    simp only [Finset.sum_mul, Finset.mul_sum]
    rw [Finset.sum_comm]
    refine Finset.sum_congr rfl fun j _ => Finset.sum_congr rfl fun d _ => ?_
    ring
  unfold adjRowK adjRow
  simp only [← EReal.coe_mul, ← coe_sum]
  rw [key]

/-- An entry of a zero-padded matrix: the attention entry in the chosen column, zero in the other two. -/
private theorem padCol_apply (k₀ k : Fin 3) (a : Arr 128 1) (o : Fin 128) :
    padCol k₀ a (ix2 o k) = if k.val = k₀.val then a (ix2 o 0) else 0 := rfl

/-- Against the zero-padded columns the one sum of three products is the three separate scores. -/
theorem featK_padCol (hl hh hm : Fin 128 → EReal) (a1 a2 a3 : Arr 128 1) (k : Fin 3) :
    featK hl hh hm (padCol 0 a1) (padCol 1 a2) (padCol 2 a3) k = feat hl hh hm a1 a2 a3 k := by
  -- in each column two of the three sums have every term a product with zero
  match k with
  | ⟨0, _⟩ => simp [featK, feat, score, padCol_apply]
  | ⟨1, _⟩ => simp [featK, feat, score, padCol_apply]
  | ⟨2, _⟩ => simp [featK, feat, score, padCol_apply]

/-- So the kernel's row is the reference's. -/
theorem rowOutK_padCol (hl hh hm : Fin 128 → EReal) (a1 a2 a3 : Arr 128 1) (av : Arr 3 3) (o : Fin 128) :
    rowOutK hl hh hm (padCol 0 a1) (padCol 1 a2) (padCol 2 a3) av o = rowOut hl hh hm a1 a2 a3 av o := by
  unfold rowOutK rowOut
  congr 1
  funext k
  exact featK_padCol hl hh hm a1 a2 a3 k

end Cert.Spec

end
-- ==== Proof.PadCols.lean ====
/-
  The three host concatenations before the region place an attention column in column 0, 1 or 2 of a 128×3 matrix
  whose other two columns are the broadcast zero: read at an index they are `Cert.Spec.padCol`.
-/
import proofs.«123373_g4337916969350_cont_sun_m_394_11_alg».proof.Proof.Spec
import proofs.«123373_g4337916969350_cont_sun_m_394_11_alg».proof.KernelIdeal
import Idealize.ShloMosaic.Lib.Pipeline.Value

noncomputable section

namespace Cert.KernelIdeal.PadCols

open Idealize.ShloMosaic Idealize.ShloMosaic.ValueIdx Cert.KernelIdeal Cert.KernelIdeal.Facts₀

variable [Cert.KernelIdeal.Facts]

/-- The 128×1 column of zeros the host prefix broadcasts. -/
abbrev zcol : (⟨S128x1, .f32⟩ : BufTy).Contents (Elt Ideal) :=
  broadcastInDim S128x1 ![] bcast_S_S128x1 (constant (F := Ideal) S_ .f32 0x00000000#32)

/-- The broadcast zero column reads 0 everywhere. -/
theorem zcol_apply (i : S128x1.Idx) : zcol i = 0 := by
  show Ideal.ofBits .f32 0x00000000#32 = 0
  exact Ideal.ofBits_zero_f32

/-- Three 128×1 columns laid side by side, read at row `r`, column `k`: column number `k` at row `r`. -/
theorem concat3_apply {α : Type} (x0 x1 x2 : S128x1.Idx → α)
    (h : Shape.Concatenates [S128x1, S128x1, S128x1] S128x3 1) (r : Fin 128) (k : Fin 3) :
    concatenate S128x3 1 [⟨S128x1, x0⟩, ⟨S128x1, x1⟩, ⟨S128x1, x2⟩] h (ix2 r k) = (![x0, x1, x2] k) (ix2 r 0) := by
  have hi : ∀ b : Fin S128x1.rank, b.cast (rfl : S128x1.rank = S128x3.rank) ≠ (1 : Fin S128x3.rank) →
      ((ix2 r (0 : Fin 1) : S128x1.Idx) b).val = ((ix2 r k : S128x3.Idx) (b.cast rfl)).val := by
    intro b hb
    match b, hb with
    | ⟨0, _⟩, _ => rfl
    | ⟨1, _⟩, hb => exact absurd rfl hb
  match k with
  | ⟨0, _⟩ =>
    exact concatenate_apply_piece (1 : Fin S128x3.rank) [⟨S128x1, x0⟩, ⟨S128x1, x1⟩, ⟨S128x1, x2⟩] h _ 0
      (Nat.zero_lt_succ _) S128x1 x0 rfl rfl 0 rfl (ix2 r 0) hi rfl
  | ⟨1, _⟩ =>
    exact concatenate_apply_piece (1 : Fin S128x3.rank) [⟨S128x1, x0⟩, ⟨S128x1, x1⟩, ⟨S128x1, x2⟩] h _ 1
      (Nat.succ_lt_succ (Nat.zero_lt_succ _)) S128x1 x1 rfl rfl 1 rfl (ix2 r 0) hi rfl
  | ⟨2, _⟩ =>
    exact concatenate_apply_piece (1 : Fin S128x3.rank) [⟨S128x1, x0⟩, ⟨S128x1, x1⟩, ⟨S128x1, x2⟩] h _ 2
      (Nat.succ_lt_succ (Nat.succ_lt_succ (Nat.zero_lt_succ _))) S128x1 x2 rfl rfl 2 rfl (ix2 r 0) hi rfl

theorem concat_pad0 (a : (⟨S128x1, .f32⟩ : BufTy).Contents (Elt Ideal)) :
    (concatenate S128x3 1 [⟨S128x1, a⟩, ⟨S128x1, zcol⟩, ⟨S128x1, zcol⟩] concatenates_S128x1_S128x1_S128x1_S128x3_d1
      : (⟨S128x3, .f32⟩ : BufTy).Contents (Elt Ideal)) = Cert.Spec.padCol 0 a := by
  funext i
  obtain ⟨r, k, rfl⟩ : ∃ (r : Fin 128) (k : Fin 3), i = ix2 r k := ⟨i 0, i 1, eq_ix2 i⟩
  rw [concat3_apply]
  match k with
  | ⟨0, _⟩ => exact (if_pos rfl).symm
  | ⟨1, _⟩ =>
    show zcol (ix2 r 0) = if (1 : Nat) = 0 then a (ix2 r 0) else 0
    rw [zcol_apply, if_neg (by decide)]
  | ⟨2, _⟩ =>
    show zcol (ix2 r 0) = if (2 : Nat) = 0 then a (ix2 r 0) else 0
    rw [zcol_apply, if_neg (by decide)]

theorem concat_pad1 (a : (⟨S128x1, .f32⟩ : BufTy).Contents (Elt Ideal)) :
    (concatenate S128x3 1 [⟨S128x1, zcol⟩, ⟨S128x1, a⟩, ⟨S128x1, zcol⟩] concatenates_S128x1_S128x1_S128x1_S128x3_d1
      : (⟨S128x3, .f32⟩ : BufTy).Contents (Elt Ideal)) = Cert.Spec.padCol 1 a := by
  funext i
  obtain ⟨r, k, rfl⟩ : ∃ (r : Fin 128) (k : Fin 3), i = ix2 r k := ⟨i 0, i 1, eq_ix2 i⟩
  rw [concat3_apply]
  match k with
  | ⟨0, _⟩ =>
    show zcol (ix2 r 0) = if (0 : Nat) = 1 then a (ix2 r 0) else 0
    rw [zcol_apply, if_neg (by decide)]
  | ⟨1, _⟩ => exact (if_pos rfl).symm
  | ⟨2, _⟩ =>
    show zcol (ix2 r 0) = if (2 : Nat) = 1 then a (ix2 r 0) else 0
    rw [zcol_apply, if_neg (by decide)]

theorem concat_pad2 (a : (⟨S128x1, .f32⟩ : BufTy).Contents (Elt Ideal)) :
    (concatenate S128x3 1 [⟨S128x1, zcol⟩, ⟨S128x1, zcol⟩, ⟨S128x1, a⟩] concatenates_S128x1_S128x1_S128x1_S128x3_d1
      : (⟨S128x3, .f32⟩ : BufTy).Contents (Elt Ideal)) = Cert.Spec.padCol 2 a := by
  funext i
  obtain ⟨r, k, rfl⟩ : ∃ (r : Fin 128) (k : Fin 3), i = ix2 r k := ⟨i 0, i 1, eq_ix2 i⟩
  rw [concat3_apply]
  match k with
  | ⟨0, _⟩ =>
    show zcol (ix2 r 0) = if (0 : Nat) = 2 then a (ix2 r 0) else 0
    rw [zcol_apply, if_neg (by decide)]
  | ⟨1, _⟩ =>
    show zcol (ix2 r 0) = if (1 : Nat) = 2 then a (ix2 r 0) else 0
    rw [zcol_apply, if_neg (by decide)]
  | ⟨2, _⟩ => exact (if_pos rfl).symm

end Cert.KernelIdeal.PadCols

end
-- ==== Proof.KIValue.lean ====
/-
  The idealized kernel's result array, as one function of the argument arrays.

  Point t of the grid writes back rows 200t … 200t+199 of the result.  Row p of that block is the row-wise value of
  row 200t+p of the two adjacency matrices (staged as row p of their panels at t), of row 200t+p of x (the body's
  second, offset load of the resident x), of the weight matrices, of the three padded attention matrices the host
  prefix made, and of the mixing matrix.  With every entry of x, the adjacency matrices and the first two weight
  matrices a real number the products re-associate, the padded matrices give the three separate scores, and the
  row is row 200t+p of `Cert.Spec.G`.  The 50 blocks tile the 10000 rows, so the array ends holding `Cert.Spec.G`.
-/
import proofs.«123373_g4337916969350_cont_sun_m_394_11_alg».proof.Proof.KIFrame
import proofs.«123373_g4337916969350_cont_sun_m_394_11_alg».proof.Proof.KernelRow
import proofs.«123373_g4337916969350_cont_sun_m_394_11_alg».proof.Proof.SpecLaws
import proofs.«123373_g4337916969350_cont_sun_m_394_11_alg».proof.Proof.PadCols
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps and the body's computed offset, decided once over the 50 points: the two adjacency
    panels and the result move one block of 200 rows per point, everything else stays at block 0, and the body's
    second load of x starts at row 200·t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ k0_off1 (grid0.coords t) (0 : Fin 2) = 200 * t.val ∧ k0_off1 (grid0.coords t) (1 : Fin 2) = 0 :=
  (by decide +kernel : ∀ t : Fin grid0.N, _)

theorem t_lt (t : Fin cfg0.N) : t.val < 50 := lt_of_lt_of_eq t.isLt N_0

/-- Row p of block t is row 200t+p of the array. -/
def row (t : Fin cfg0.N) (p : Fin 200) : Fin 10000 := ⟨200 * t.val + p.val, by have := t_lt t; have := p.isLt; omega⟩

/-! ## The host prefix's three matrices -/

theorem V_v1 (c : Dev nD) : (V m c main_v1 : S128x3.Idx → EReal) = Cert.Spec.padCol 0 (m ((c : Thread nD τ).loc main_arg6)) := by
  dsimp only [V, hostOps0]; after_results
  exact PadCols.concat_pad0 _

theorem V_v2 (c : Dev nD) : (V m c main_v2 : S128x3.Idx → EReal) = Cert.Spec.padCol 1 (m ((c : Thread nD τ).loc main_arg7)) := by
  dsimp only [V, hostOps0]; after_results
  exact PadCols.concat_pad1 _

theorem V_v3 (c : Dev nD) : (V m c main_v3 : S128x3.Idx → EReal) = Cert.Spec.padCol 2 (m ((c : Thread nD τ).loc main_arg8)) := by
  dsimp only [V, hostOps0]; after_results
  exact PadCols.concat_pad2 _

/-! ## The blocks the body reads at point `t` -/

/-- Row p of the low-pass panel at point t is row 200t+p of the matrix. -/
theorem blk0 (c : Dev nD) (t : Fin cfg0.N) (p : Fin 200) (j : Fin 10000) :
    (iblk m c 0 t : S200x10000.Idx → EReal) (ix2 p j) = m ((c : Thread nD τ).loc main_arg1) (ix2 (row t p) j) := by
  obtain ⟨e0a, e0b, e1a, e1b, e2a, e2b, e3a, e3b, e4a, e4b, e5a, e5b, e6a, e6b, e7a, e7b, e8a, e8b, e9a, e9b, eoa, eob, eka, ekb⟩ := idx_facts t
  show V m c main_arg1 (((cfg0.win 0).blk t).view.emb (ix2 p j)) = _
  rw [V_main_arg1]
  refine congrArg _ ?_
  funext a; apply Fin.ext
  match a with
  | ⟨0, _⟩ => show win0_0.index t (0 : Fin 2) * 200 + 1 * p.val = 200 * t.val + p.val; omega
  | ⟨1, _⟩ => show win0_0.index t (1 : Fin 2) * 10000 + 1 * j.val = j.val; omega

/-- Row p of the high-pass panel at point t is row 200t+p of the matrix. -/
theorem blk1 (c : Dev nD) (t : Fin cfg0.N) (p : Fin 200) (j : Fin 10000) :
    (iblk m c 1 t : S200x10000.Idx → EReal) (ix2 p j) = m ((c : Thread nD τ).loc main_arg2) (ix2 (row t p) j) := by
  obtain ⟨e0a, e0b, e1a, e1b, e2a, e2b, e3a, e3b, e4a, e4b, e5a, e5b, e6a, e6b, e7a, e7b, e8a, e8b, e9a, e9b, eoa, eob, eka, ekb⟩ := idx_facts t
  show V m c main_arg2 (((cfg0.win 1).blk t).view.emb (ix2 p j)) = _
  rw [V_main_arg2]
  refine congrArg _ ?_
  funext a; apply Fin.ext
  match a with
  | ⟨0, _⟩ => show win0_1.index t (0 : Fin 2) * 200 + 1 * p.val = 200 * t.val + p.val; omega
  | ⟨1, _⟩ => show win0_1.index t (1 : Fin 2) * 10000 + 1 * j.val = j.val; omega

/-- Window 2 stages the whole of `main_arg0` at every point. -/
theorem blk2 (c : Dev nD) (t : Fin cfg0.N) : (iblk m c 2 t : S10000x128.Idx → EReal) = V m c main_arg0 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_arg0 (((cfg0.win 2).blk t).view.emb y) = V m c main_arg0 y
  refine congrArg _ ?_
  funext a; apply Fin.ext
  match a with
  | ⟨0, _⟩ => show win0_2.index t (0 : Fin 2) * 10000 + 1 * (y 0).val = (y 0).val; omega
  | ⟨1, _⟩ => show win0_2.index t (1 : Fin 2) * 128 + 1 * (y 1).val = (y 1).val; omega
/-- Window 3 stages the whole of `main_arg3` at every point. -/
theorem blk3 (c : Dev nD) (t : Fin cfg0.N) : (iblk m c 3 t : S128x128.Idx → EReal) = V m c main_arg3 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_arg3 (((cfg0.win 3).blk t).view.emb y) = V m c main_arg3 y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4 stages the whole of `main_arg4` at every point. -/
theorem blk4 (c : Dev nD) (t : Fin cfg0.N) : (iblk m c 4 t : S128x128.Idx → EReal) = V m c main_arg4 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_arg4 (((cfg0.win 4).blk t).view.emb y) = V m c main_arg4 y
  refine congrArg _ ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
/-- Window 5 stages the whole of `main_arg5` at every point. -/
theorem blk5 (c : Dev nD) (t : Fin cfg0.N) : (iblk m c 5 t : S128x128.Idx → EReal) = V m c main_arg5 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_arg5 (((cfg0.win 5).blk t).view.emb y) = V m c main_arg5 y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega
/-- Window 6 stages the whole of `main_v1` at every point. -/
theorem blk6 (c : Dev nD) (t : Fin cfg0.N) : (iblk m c 6 t : S128x3.Idx → EReal) = V m c main_v1 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_v1 (((cfg0.win 6).blk t).view.emb y) = V m c main_v1 y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 3 + 1 * (y 1).val = (y 1).val; omega
/-- Window 7 stages the whole of `main_v2` at every point. -/
theorem blk7 (c : Dev nD) (t : Fin cfg0.N) : (iblk m c 7 t : S128x3.Idx → EReal) = V m c main_v2 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_v2 (((cfg0.win 7).blk t).view.emb y) = V m c main_v2 y
  refine congrArg _ ?_
  funext a; apply Fin.ext
  match a with
  | ⟨0, _⟩ => show win0_7.index t (0 : Fin 2) * 128 + 1 * (y 0).val = (y 0).val; omega
  | ⟨1, _⟩ => show win0_7.index t (1 : Fin 2) * 3 + 1 * (y 1).val = (y 1).val; omega
/-- Window 8 stages the whole of `main_v3` at every point. -/
theorem blk8 (c : Dev nD) (t : Fin cfg0.N) : (iblk m c 8 t : S128x3.Idx → EReal) = V m c main_v3 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_v3 (((cfg0.win 8).blk t).view.emb y) = V m c main_v3 y
  refine congrArg _ ?_
  funext a; apply Fin.ext
  match a with
  | ⟨0, _⟩ => show win0_8.index t (0 : Fin 2) * 128 + 1 * (y 0).val = (y 0).val; omega
  | ⟨1, _⟩ => show win0_8.index t (1 : Fin 2) * 3 + 1 * (y 1).val = (y 1).val; omega
/-- Window 9 stages the whole of `main_arg9` at every point. -/
theorem blk9 (c : Dev nD) (t : Fin cfg0.N) : (iblk m c 9 t : S3x3.Idx → EReal) = V m c main_arg9 := by
  obtain ⟨e0a, e0b, e1a, e1b, e2a, e2b, e3a, e3b, e4a, e4b, e5a, e5b, e6a, e6b, e7a, e7b, e8a, e8b, e9a, e9b, eoa, eob, eka, ekb⟩ := idx_facts t
  funext y
  show V m c main_arg9 (((cfg0.win 9).blk t).view.emb y) = V m c main_arg9 y
  refine congrArg _ ?_
  funext a; apply Fin.ext
  match a with
  | ⟨0, _⟩ => show win0_9.index t (0 : Fin 2) * 3 + 1 * (y 0).val = (y 0).val; omega
  | ⟨1, _⟩ => show win0_9.index t (1 : Fin 2) * 3 + 1 * (y 1).val = (y 1).val; omega

/-- The body's second load of x at point t: row p of it is row 200t+p of x. -/
theorem ldX (X : S10000x128.Idx → Elt Ideal .f32) (t : Fin cfg0.N) (p : Fin 200) (d : Fin 128) :
    (View.ld (Val := Elt Ideal) (e' := .f32) X (rXi (grid0.coords t)) : S200x128.Idx → EReal) (ix2 p d) = X (ix2 (row t p) d) := by
  obtain ⟨e0a, e0b, e1a, e1b, e2a, e2b, e3a, e3b, e4a, e4b, e5a, e5b, e6a, e6b, e7a, e7b, e8a, e8b, e9a, e9b, eoa, eob, eka, ekb⟩ := idx_facts t
  show X ((rXi (grid0.coords t)).idx (ix2 p d)) = _
  refine congrArg _ ?_
  funext a; apply Fin.ext
  match a with
  | ⟨0, _⟩ => show k0_off1 (grid0.coords t) (0 : Fin 2) + 1 * p.val = 200 * t.val + p.val; omega
  | ⟨1, _⟩ => show k0_off1 (grid0.coords t) (1 : Fin 2) + 1 * d.val = d.val; omega

/-! ## What a point writes back, and the whole array -/

/-- The layer's value of the argument arrays as launched on core `c`. -/
abbrev Gm (c : Dev nD) : S10000x128.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- Entry (p, o) of block t of the result array is entry (200t+p, o) of the array. -/
theorem emb_out (t : Fin cfg0.N) (p : Fin 200) (o : Fin 128) :
    ((cfg0.win 10).blk t).view.emb (ix2 p o) = (ix2 (row t p) o : S10000x128.Idx) := by
  obtain ⟨e0a, e0b, e1a, e1b, e2a, e2b, e3a, e3b, e4a, e4b, e5a, e5b, e6a, e6b, e7a, e7b, e8a, e8b, e9a, e9b, eoa, eob, eka, ekb⟩ := idx_facts t
  funext a; apply Fin.ext
  match a with
  | ⟨0, _⟩ => show win0_10.index t (0 : Fin 2) * 200 + 1 * p.val = 200 * t.val + p.val; omega
  | ⟨1, _⟩ => show win0_10.index t (1 : Fin 2) * 128 + 1 * o.val = o.val; omega

/-- WHAT POINT `t` WRITES BACK is block `t` of the layer's value, when the entries of x, of both adjacency
    matrices and of the first two weight matrices are real numbers. -/
theorem flushed_eq (c : Dev nD)
    (hx : ∀ i, ∃ r : ℝ, m ((c : Thread nD τ).loc main_arg0) i = (r : EReal)) (hA1 : ∀ i, ∃ r : ℝ, m ((c : Thread nD τ).loc main_arg1) i = (r : EReal))
    (hA2 : ∀ i, ∃ r : ℝ, m ((c : Thread nD τ).loc main_arg2) i = (r : EReal)) (hW1 : ∀ i, ∃ r : ℝ, m ((c : Thread nD τ).loc main_arg3) i = (r : EReal))
    (hW2 : ∀ i, ∃ r : ℝ, m ((c : Thread nD τ).loc main_arg4) i = (r : EReal)) (t : Fin cfg0.N) :
    (dats m 0 c).flushed 10 t = ((cfg0.win 10).blk t).view.read (Elt Ideal) (Gm m c) := by
  show (cfg0.win 10).cut (grid0.coords t) ((dats m 0 c).after 10 t) = _
  rw [after0_10]
  unfold out
  rw [View.canon_unit_zero hz]
  simp only [View.ld_unit_zero (S := S200x10000) hz, View.ld_unit_zero (S := S10000x128) hz, View.ld_unit_zero (S := S128x128) hz,
    View.ld_unit_zero (S := S128x3) hz, View.ld_unit_zero (S := S3x3) hz]
  funext y
  obtain ⟨p, o, rfl⟩ : ∃ (p : Fin 200) (o : Fin 128), y = ix2 p o := ⟨y 0, y 1, eq_ix2 y⟩
  refine (RowValue.pay_row (iblk m c 2 t) (iblk m c 0 t) (iblk m c 1 t) (iblk m c 3 t) (iblk m c 4 t) (iblk m c 5 t)
    (View.ld (iblk m c 2 t) (rXi (grid0.coords t))) (iblk m c 6 t) (iblk m c 7 t) (iblk m c 8 t) (iblk m c 9 t) p o).trans ?_
  show _ = Gm m c (((cfg0.win 10).blk t).view.emb (ix2 p o))
  rw [emb_out]
  have e0 : (fun j => (iblk m c 0 t : S200x10000.Idx → EReal) (ix2 p j)) = fun j => m ((c : Thread nD τ).loc main_arg1) (ix2 (row t p) j) :=
    funext fun j => blk0 m c t p j
  have e1 : (fun j => (iblk m c 1 t : S200x10000.Idx → EReal) (ix2 p j)) = fun j => m ((c : Thread nD τ).loc main_arg2) (ix2 (row t p) j) :=
    funext fun j => blk1 m c t p j
  have e2 : (fun d => (View.ld (Val := Elt Ideal) (e' := .f32) (iblk m c 2 t) (rXi (grid0.coords t)) : S200x128.Idx → EReal) (ix2 p d))
      = fun d => m ((c : Thread nD τ).loc main_arg0) (ix2 (row t p) d) :=
    funext fun d => by rw [blk2 m c t, V_main_arg0]; exact ldX _ t p d
  have a1 : Cert.Spec.adjRowK (fun j => m ((c : Thread nD τ).loc main_arg1) (ix2 (row t p) j)) (m ((c : Thread nD τ).loc main_arg0)) (m ((c : Thread nD τ).loc main_arg3))
      = Cert.Spec.adjRow (fun j => m ((c : Thread nD τ).loc main_arg1) (ix2 (row t p) j)) (m ((c : Thread nD τ).loc main_arg0)) (m ((c : Thread nD τ).loc main_arg3)) :=
    funext fun o' => Cert.Spec.adjRowK_eq _ _ _ o' (fun j => hA1 _) hx hW1
  have a2 : Cert.Spec.adjRowK (fun j => m ((c : Thread nD τ).loc main_arg2) (ix2 (row t p) j)) (m ((c : Thread nD τ).loc main_arg0)) (m ((c : Thread nD τ).loc main_arg4))
      = Cert.Spec.adjRow (fun j => m ((c : Thread nD τ).loc main_arg2) (ix2 (row t p) j)) (m ((c : Thread nD τ).loc main_arg0)) (m ((c : Thread nD τ).loc main_arg4)) :=
    funext fun o' => Cert.Spec.adjRowK_eq _ _ _ o' (fun j => hA2 _) hx hW2
  rw [e0, e1, e2, blk2 m c t, blk3 m c t, blk4 m c t, blk5 m c t, blk6 m c t, blk7 m c t, blk8 m c t, blk9 m c t,
    V_main_arg0, V_main_arg3, V_main_arg4, V_main_arg5, V_main_arg9, V_v1, V_v2, V_v3, a1, a2, Cert.Spec.rowOutK_padCol]
  rfl

/-- An index of the result array is in point `t`'s block iff each coordinate is in the block's range. -/
theorem mem_blk (t : Fin cfg0.N) (i : S10000x128.Idx) :
    i ∈ ((cfg0.win 10).blk t).view.set ↔ ∀ a : Fin 2, win0_10.index t a * S200x128.size a ≤ (i a).val ∧ (i a).val < win0_10.index t a * S200x128.size a + S200x128.size a := by
  show i ∈ ((View.whole main_v4).slice (win0_10.rect t)).set ↔ _
  rw [View.set_slice_whole, Rect.mem_set_unit]
  exact Iff.rfl

/-- The 50 blocks of 200 rows tile the 10000 rows: row r is in block r / 200. -/
theorem cover (i : S10000x128.Idx) : ∃ t : Fin cfg0.N, (cfg0.win 10).flush t = true ∧ i ∈ ((cfg0.win 10).blk t).view.set := by
  have hi0 : (i 0).val < 10000 := (i 0).isLt
  have hi1 : (i 1).val < 128 := (i 1).isLt
  have hN : cfg0.N = 50 := N_0
  let t : Fin cfg0.N := ⟨(i 0).val / 200, by rw [hN]; omega⟩
  obtain ⟨e0a, e0b, e1a, e1b, e2a, e2b, e3a, e3b, e4a, e4b, e5a, e5b, e6a, e6b, e7a, e7b, e8a, e8b, e9a, e9b, eoa, eob, eka, ekb⟩ := idx_facts t
  have ht : t.val = (i 0).val / 200 := rfl
  refine ⟨t, flush0_10 t, ?_⟩
  rw [mem_blk]
  intro a
  match a with
  | ⟨0, _⟩ => show win0_10.index t (0 : Fin 2) * 200 ≤ (i 0).val ∧ (i 0).val < win0_10.index t (0 : Fin 2) * 200 + 200; omega
  | ⟨1, _⟩ => show win0_10.index t (1 : Fin 2) * 128 ≤ (i 1).val ∧ (i 1).val < win0_10.index t (1 : Fin 2) * 128 + 128; omega

/-- THE RESULT ARRAY after the run is the layer's value of the arguments. -/
theorem final (c : Dev nD)
    (hx : ∀ i, ∃ r : ℝ, m ((c : Thread nD τ).loc main_arg0) i = (r : EReal)) (hA1 : ∀ i, ∃ r : ℝ, m ((c : Thread nD τ).loc main_arg1) i = (r : EReal))
    (hA2 : ∀ i, ∃ r : ℝ, m ((c : Thread nD τ).loc main_arg2) i = (r : EReal)) (hW1 : ∀ i, ∃ r : ℝ, m ((c : Thread nD τ).loc main_arg3) i = (r : EReal))
    (hW2 : ∀ i, ∃ r : ℝ, m ((c : Thread nD τ).loc main_arg4) i = (r : EReal)) :
    (dats m 0 c).arrAt 10 cfg0.N = Gm m c :=
  (dats m 0 c).arrAt_eq_of_cover 10 (Gm m c) (fun t _ => flushed_eq m c hx hA1 hA2 hW1 hW2 t) cover

/-- The run, read: the result array at the layer's value of the arguments, the arguments unchanged. -/
theorem run (hre : ∀ c : Dev nD, (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ (∀ i, ∃ r : ℝ, m ((c : Thread nD τ).loc main_arg3) i = (r : EReal))
      ∧ (∀ i, ∃ r : ℝ, m ((c : Thread nD τ).loc main_arg4) i = (r : EReal))) :
    θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final m c (hre c).1 (hre c).2.1 (hre c).2.2.1 (hre c).2.2.2.1 (hre c).2.2.2.2),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c)))⟩)
    (run_main m ρ)

end Cert.KernelIdeal.Val

end
-- ==== Proof.RefValue.lean ====
/-
  The reference's result, operation by operation, is the row-wise value `Cert.Spec.G` of the argument arrays.
-/
import proofs.«123373_g4337916969350_cont_sun_m_394_11_alg».proof.Proof.Spec
import proofs.«123373_g4337916969350_cont_sun_m_394_11_alg».proof.Proof.Gen.ReferenceIdeal.Read
import Idealize.ShloMosaic.Lib.IdealHost

noncomputable section

namespace Cert.ReferenceIdeal.RefValue

open Idealize.ShloMosaic Idealize.ShloMosaic.ValueIdx Cert.ReferenceIdeal Cert.ReferenceIdeal.Read

/-- A rank-2 index with coordinates `a` and `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index with coordinate `a` is `ix1 a`. -/
theorem idx1_eq {n0 : Nat} (f : (⟨1, ![n0]⟩ : Shape).Idx) (a : Fin n0) (h0 : (f 0).val = a.val) : f = ix1 a :=
  funext fun d => Fin.ext (by match d with | ⟨0, _⟩ => exact h0)

variable (x0 : (⟨S10000x128, .f32⟩ : BufTy).Contents (Elt Ideal)) (x1 x2 : (⟨S10000x10000, .f32⟩ : BufTy).Contents (Elt Ideal))
    (x3 x4 x5 : (⟨S128x128, .f32⟩ : BufTy).Contents (Elt Ideal)) (x6 x7 x8 : (⟨S128x1, .f32⟩ : BufTy).Contents (Elt Ideal))
    (x9 : (⟨S3x3, .f32⟩ : BufTy).Contents (Elt Ideal))

/-! ## The three rectified branch rows -/

/-- x · W at (j, o). -/
theorem xw_apply (W : (⟨S128x128, .f32⟩ : BufTy).Contents (Elt Ideal)) (j : Fin 10000) (o : Fin 128) :
    (∑ d : Fin 128, x0 (lidx_main_v0 (ix2 j o) d) * W (ridx_main_v0 (ix2 j o) d))
      = ∑ d : Fin 128, x0 (ix2 j d) * W (ix2 d o) :=
  Finset.sum_congr rfl fun d _ => by
    rw [idx2_eq (lidx_main_v0 (ix2 j o) d) j d rfl rfl, idx2_eq (ridx_main_v0 (ix2 j o) d) d o rfl rfl]

/-- The low-pass branch: relu(A_low · (x · W_low)) at (r, o). -/
theorem v2_apply (r : Fin 10000) (o : Fin 128) :
    val_main_v2 (F := Ideal) x0 x1 x3 (ix2 r o) = Spec.adjRow (fun j => x1 (ix2 r j)) x0 x3 o := by
  rw [val_main_v2_apply, val_main_v1_apply, val_main_call0_v0_apply, val_main_call0_cst_apply, Ideal.maximumf_def,
    Ideal.ofBits_def, Ideal.ofBits_zero_f32]
  unfold Spec.adjRow
  refine congrArg (fun s => max s (0 : EReal)) (Finset.sum_congr rfl fun k _ => ?_)
  rw [idx2_eq (lidx_main_v1 (ix2 r o) k) r k rfl rfl, idx2_eq (ridx_main_v1 (ix2 r o) k) k o rfl rfl, val_main_v0_apply]
  exact congrArg (x1 (ix2 r k) * ·) (xw_apply x0 x3 k o)

/-- The high-pass branch: relu(A_high · (x · W_high)) at (r, o). -/
theorem v5_apply (r : Fin 10000) (o : Fin 128) :
    val_main_v5 (F := Ideal) x0 x2 x4 (ix2 r o) = Spec.adjRow (fun j => x2 (ix2 r j)) x0 x4 o := by
  rw [val_main_v5_apply, val_main_v4_apply, val_main_call1_v0_apply, val_main_call1_cst_apply, Ideal.maximumf_def,
    Ideal.ofBits_def, Ideal.ofBits_zero_f32]
  unfold Spec.adjRow
  refine congrArg (fun s => max s (0 : EReal)) (Finset.sum_congr rfl fun k _ => ?_)
  rw [idx2_eq (lidx_main_v4 (ix2 r o) k) r k rfl rfl, idx2_eq (ridx_main_v4 (ix2 r o) k) k o rfl rfl, val_main_v3_apply]
  exact congrArg (x2 (ix2 r k) * ·) (xw_apply x0 x4 k o)

/-- The identity branch: relu(x · W_mlp) at (r, o). -/
theorem v7_apply (r : Fin 10000) (o : Fin 128) :
    val_main_v7 (F := Ideal) x0 x5 (ix2 r o) = Spec.mlpRow (fun d => x0 (ix2 r d)) x5 o := by
  rw [val_main_v7_apply, val_main_v6_apply, val_main_call2_v0_apply, val_main_call2_cst_apply, Ideal.maximumf_def,
    Ideal.ofBits_def, Ideal.ofBits_zero_f32]
  unfold Spec.mlpRow
  exact congrArg (fun s => max s (0 : EReal)) (xw_apply x0 x5 r o)

/-! ## The three scores of a row -/

/-- The low-pass score of row r. -/
theorem v8_apply (r : Fin 10000) :
    val_main_v8 (F := Ideal) x0 x1 x3 x6 (ix2 r 0) = Spec.score (Spec.adjRow (fun j => x1 (ix2 r j)) x0 x3) x6 := by
  rw [val_main_v8_apply]
  unfold Spec.score
  refine Finset.sum_congr rfl fun k _ => ?_
  rw [idx2_eq (lidx_main_v8 (ix2 r 0) k) r k rfl rfl, idx2_eq (ridx_main_v8 (ix2 r 0) k) k 0 rfl rfl, v2_apply]

/-- The high-pass score of row r. -/
theorem v9_apply (r : Fin 10000) :
    val_main_v9 (F := Ideal) x0 x2 x4 x7 (ix2 r 0) = Spec.score (Spec.adjRow (fun j => x2 (ix2 r j)) x0 x4) x7 := by
  rw [val_main_v9_apply]
  unfold Spec.score
  refine Finset.sum_congr rfl fun k _ => ?_
  rw [idx2_eq (lidx_main_v9 (ix2 r 0) k) r k rfl rfl, idx2_eq (ridx_main_v9 (ix2 r 0) k) k 0 rfl rfl, v5_apply]

/-- The identity score of row r. -/
theorem v10_apply (r : Fin 10000) :
    val_main_v10 (F := Ideal) x0 x5 x8 (ix2 r 0) = Spec.score (Spec.mlpRow (fun d => x0 (ix2 r d)) x5) x8 := by
  rw [val_main_v10_apply]
  unfold Spec.score
  refine Finset.sum_congr rfl fun k _ => ?_
  rw [idx2_eq (lidx_main_v10 (ix2 r 0) k) r k rfl rfl, idx2_eq (ridx_main_v10 (ix2 r 0) k) k 0 rfl rfl, v7_apply]

/-- The three scores of row r, as the reference's arguments give them. -/
abbrev featRow (r : Fin 10000) : Fin 3 → EReal :=
  Spec.feat (Spec.adjRow (fun j => x1 (ix2 r j)) x0 x3) (Spec.adjRow (fun j => x2 (ix2 r j)) x0 x4)
    (Spec.mlpRow (fun d => x0 (ix2 r d)) x5) x6 x7 x8

/-- The three score columns joined along axis 1: column k of row r is score k. -/
theorem v11_apply (r : Fin 10000) (k : Fin 3) :
    val_main_v11 (F := Ideal) x0 x1 x2 x3 x4 x5 x6 x7 x8 (ix2 r k) = featRow x0 x1 x2 x3 x4 x5 x6 x7 x8 r k := by
  unfold val_main_v11
  match k with
  | ⟨0, _⟩ =>
    refine (concatenate_apply_piece (1 : Fin S10000x3.rank) _ _ _ 0 (by show (0 : Nat) < 3; omega) S10000x1 _ rfl rfl 0 rfl (ix2 r 0)
      (fun b hb => ?_) rfl).trans (v8_apply x0 x1 x3 x6 r)
    match b with
    | ⟨0, _⟩ => rfl
    | ⟨1, _⟩ => exact absurd rfl hb
  | ⟨1, _⟩ =>
    refine (concatenate_apply_piece (1 : Fin S10000x3.rank) _ _ _ 1 (by show (1 : Nat) < 3; omega) S10000x1 _ rfl rfl 1 rfl (ix2 r 0)
      (fun b hb => ?_) rfl).trans (v9_apply x0 x2 x4 x7 r)
    match b with
    | ⟨0, _⟩ => rfl
    | ⟨1, _⟩ => exact absurd rfl hb
  | ⟨2, _⟩ =>
    refine (concatenate_apply_piece (1 : Fin S10000x3.rank) _ _ _ 2 (by show (2 : Nat) < 3; omega) S10000x1 _ rfl rfl 2 rfl (ix2 r 0)
      (fun b hb => ?_) rfl).trans (v10_apply x0 x5 x8 r)
    match b with
    | ⟨0, _⟩ => rfl
    | ⟨1, _⟩ => exact absurd rfl hb

/-! ## The logistic scores, the logits, their maximum and the softmax weights -/

/-- The logistic of score k of row r, spelt 1 / (1 + exp (-f)). -/
theorem v17_apply (r : Fin 10000) (k : Fin 3) :
    val_main_v17 (F := Ideal) x0 x1 x2 x3 x4 x5 x6 x7 x8 (ix2 r k)
      = Ideal.logistic (featRow x0 x1 x2 x3 x4 x5 x6 x7 x8 r k) := by
  rw [val_main_v17_apply, val_main_v16_apply, val_main_cst_0_apply, val_main_v15_apply, val_main_v14_apply,
    val_main_cst_apply, val_main_v13_apply, val_main_v12_apply, v11_apply, Ideal.hostDivf_def, Ideal.addf_def,
    Ideal.hostUnary_exp_def, Ideal.hostNegf_def, Ideal.negf_def, Ideal.ofBits_def, Ideal.ofBits_one_f32]
  rfl

/-- The three logits of row r. -/
abbrev logitRow (r : Fin 10000) : Fin 3 → EReal :=
  Spec.logit (fun k => Ideal.logistic (featRow x0 x1 x2 x3 x4 x5 x6 x7 x8 r k)) x9

/-- The logit k of row r: the logistic scores against column k of the mixing matrix, over the temperature. -/
theorem v20_apply (r : Fin 10000) (k : Fin 3) :
    val_main_v20 (F := Ideal) x0 x1 x2 x3 x4 x5 x6 x7 x8 x9 (ix2 r k) = logitRow x0 x1 x2 x3 x4 x5 x6 x7 x8 x9 r k := by
  rw [val_main_v20_apply, val_main_v19_apply, val_main_cst_1_apply, val_main_v18_apply, Ideal.hostDivf_def, Ideal.ofBits_def]
  show _ = Ideal.div (∑ j : Fin 3, Ideal.logistic (featRow x0 x1 x2 x3 x4 x5 x6 x7 x8 r j) * x9 (ix2 j k)) Spec.three
  refine congrArg (fun s => Ideal.div s Spec.three) (Finset.sum_congr rfl fun j _ => ?_)
  rw [idx2_eq (lidx_main_v18 (ix2 r k) j) r j rfl rfl, idx2_eq (ridx_main_v18 (ix2 r k) j) j k rfl rfl, v17_apply]

/-- The maximum over axis 1 from -inf: the fold of max over the three logits of the row. -/
theorem v21_apply (r : Fin 10000) :
    val_main_v21 (F := Ideal) x0 x1 x2 x3 x4 x5 x6 x7 x8 x9 (ix1 r)
      = (Finset.univ : Finset (Fin 3)).fold max Spec.negInf (logitRow x0 x1 x2 x3 x4 x5 x6 x7 x8 x9 r) := by
  unfold val_main_v21
  have h : S10000x3.Reduces [1] S10000 := by decide
  rw [Host.reduce_eq_fold_single FloatOps.maximumf _ _ _ h _ (ix1 r)]
  have hf : (val_main_v20 (F := Ideal) x0 x1 x2 x3 x4 x5 x6 x7 x8 x9 ∘ h.lift (ix1 r)) = logitRow x0 x1 x2 x3 x4 x5 x6 x7 x8 x9 r :=
    funext fun k : Fin 3 =>
      (congrArg (val_main_v20 (F := Ideal) x0 x1 x2 x3 x4 x5 x6 x7 x8 x9) (idx2_eq (h.lift (ix1 r) k) r k rfl rfl)).trans
        (v20_apply x0 x1 x2 x3 x4 x5 x6 x7 x8 x9 r k)
  exact congrArg (fun f => Finset.fold max Spec.negInf f (Finset.univ : Finset (Fin 3))) hf

/-- The row maximum as the reference takes it. -/
theorem v23_apply (r : Fin 10000) :
    val_main_v23 (F := Ideal) x0 x1 x2 x3 x4 x5 x6 x7 x8 x9 (ix1 r) = Spec.rowMax (logitRow x0 x1 x2 x3 x4 x5 x6 x7 x8 x9 r) := by
  rw [val_main_v23_apply, val_main_v22_apply, val_main_cst_3_apply, v21_apply, Ideal.maximumf_def, Ideal.ofBits_def]
  rfl

/-- The shifted logit's exponential. -/
theorem v27_apply (r : Fin 10000) (k : Fin 3) :
    val_main_v27 (F := Ideal) x0 x1 x2 x3 x4 x5 x6 x7 x8 x9 (ix2 r k)
      = Ideal.exp (logitRow x0 x1 x2 x3 x4 x5 x6 x7 x8 x9 r k - Spec.rowMax (logitRow x0 x1 x2 x3 x4 x5 x6 x7 x8 x9 r)) := by
  rw [val_main_v27_apply, val_main_v26_apply, val_main_v25_apply, val_main_v24_apply, v20_apply,
    idx1_eq (idx_main_v24 (idx_main_v25 (ix2 r k))) r rfl, v23_apply, Ideal.hostUnary_exp_def, Ideal.subf_def]

/-- The softmax's denominator: the sum of the three exponentials of the row. -/
theorem v28_apply (r : Fin 10000) :
    val_main_v28 (F := Ideal) x0 x1 x2 x3 x4 x5 x6 x7 x8 x9 (ix1 r)
      = ∑ k : Fin 3, Ideal.exp (logitRow x0 x1 x2 x3 x4 x5 x6 x7 x8 x9 r k - Spec.rowMax (logitRow x0 x1 x2 x3 x4 x5 x6 x7 x8 x9 r)) := by
  rw [val_main_v28_apply, val_main_cst_4_apply, Ideal.ofBits_def, Ideal.ofBits_zero_f32, zero_add]
  refine Finset.sum_congr rfl fun k _ => ?_
  rw [idx2_eq (idx_main_v28 (ix1 r) k) r k rfl rfl, v27_apply]

/-- The softmax weight of branch k in row r. -/
theorem v31_apply (r : Fin 10000) (k : Fin 3) :
    val_main_v31 (F := Ideal) x0 x1 x2 x3 x4 x5 x6 x7 x8 x9 (ix2 r k) = Spec.soft (logitRow x0 x1 x2 x3 x4 x5 x6 x7 x8 x9 r) k := by
  rw [val_main_v31_apply, val_main_v30_apply, val_main_v29_apply, v27_apply,
    idx1_eq (idx_main_v29 (idx_main_v30 (ix2 r k))) r rfl, v28_apply, Ideal.hostDivf_def]
  rfl

/-! ## The weighted sum of the three branches -/

/-- Row r, column o of the result: the three branch values weighed by the row's softmax, scaled by 3. -/
theorem v44_apply (r : Fin 10000) (o : Fin 128) :
    val_main_v44 (F := Ideal) x0 x1 x2 x3 x4 x5 x6 x7 x8 x9 (ix2 r o)
      = Spec.rowOut (Spec.adjRow (fun j => x1 (ix2 r j)) x0 x3) (Spec.adjRow (fun j => x2 (ix2 r j)) x0 x4)
          (Spec.mlpRow (fun d => x0 (ix2 r d)) x5) x6 x7 x8 x9 o := by
  rw [val_main_v44_apply, val_main_v43_apply, val_main_cst_5_apply, val_main_v42_apply, val_main_v39_apply,
    val_main_v36_apply, val_main_v38_apply, val_main_v41_apply, val_main_v35_apply, val_main_v37_apply,
    val_main_v40_apply, val_main_v32_apply, val_main_v33_apply, val_main_v34_apply,
    idx2_eq (idx_main_v32 (idx_main_v35 (ix2 r o))) r (0 : Fin 3) rfl rfl,
    idx2_eq (idx_main_v33 (idx_main_v37 (ix2 r o))) r (1 : Fin 3) rfl rfl,
    idx2_eq (idx_main_v34 (idx_main_v40 (ix2 r o))) r (2 : Fin 3) rfl rfl,
    v31_apply, v31_apply, v31_apply, v2_apply, v5_apply, v7_apply,
    Ideal.mulf_def, Ideal.mulf_def, Ideal.mulf_def, Ideal.mulf_def, Ideal.addf_def, Ideal.addf_def, Ideal.ofBits_def]
  rfl

/-- Index by index the reference computes `Cert.Spec.G`. -/
theorem ref_eq_G (x0 : (⟨S10000x128, .f32⟩ : BufTy).Contents (Elt Ideal)) (x1 x2 : (⟨S10000x10000, .f32⟩ : BufTy).Contents (Elt Ideal))
    (x3 x4 x5 : (⟨S128x128, .f32⟩ : BufTy).Contents (Elt Ideal)) (x6 x7 x8 : (⟨S128x1, .f32⟩ : BufTy).Contents (Elt Ideal))
    (x9 : (⟨S3x3, .f32⟩ : BufTy).Contents (Elt Ideal)) :
    val_main_v44 (F := Ideal) x0 x1 x2 x3 x4 x5 x6 x7 x8 x9 = Cert.Spec.G x0 x1 x2 x3 x4 x5 x6 x7 x8 x9 := by
  funext i
  obtain ⟨r, o, rfl⟩ : ∃ (r : Fin 10000) (o : Fin 128), i = ix2 r o := ⟨i 0, i 1, eq_ix2 i⟩
  exact v44_apply x0 x1 x2 x3 x4 x5 x6 x7 x8 x9 r o

end Cert.ReferenceIdeal.RefValue

end
-- ==== Proof.Finite.lean ====
/-
  The precondition says every entry of every float input is a real number.
-/
import proofs.«123373_g4337916969350_cont_sun_m_394_11_alg».proof.Pre_finite_inputs
import Idealize.ShloMosaic.PureOps.Ideal
import Idealize.ShloMosaic.Lib.ReduceAll
import Idealize.ShloMosaic.Lib.ValueIdx

noncomputable section

namespace Cert.Proof.Finite

open Idealize.ShloMosaic Cert.Pre_finite_inputs

/-- The rank-0 shape has exactly one index. -/
local instance : Subsingleton S_.Idx := ⟨fun a b => funext fun d => d.elim0⟩

/-- An extended real whose absolute value `max a (-a)` lies strictly below plus infinity is a real number:
    at minus infinity and at plus infinity the absolute value is plus infinity. -/
theorem real_of_abs_lt_top (a : EReal) (h : max a (-a) < ⊤) : ∃ r : ℝ, a = (r : EReal) := by
  induction a using EReal.rec with
  | bot => simp at h
  | coe r => exact ⟨r, rfl⟩
  | top => simp at h

/-- An array of any shape whose conjunction over all entries of `|x| < +inf` is one has only real entries:
    the conjunction being one gives the comparison at each index, the pattern `0x7F800000` denotes plus infinity,
    and an absolute value strictly below plus infinity belongs to a real number. -/
theorem real_of_all {s : Shape} (dims : Fin S_.rank → Fin s.rank) (hb : S_.BroadcastsInDim s dims)
    {axes : List (Fin s.rank)} (hr : s.ReducesTo axes S_) (hu : 0 < S_.numel) (x : FVec Ideal s .f32)
    (e : Host.reduce IntOp.andi
          (cmpf .olt (Host.absf x) (broadcastInDim s dims hb (constant (F := Ideal) S_ .f32 0x7F800000#32)))
          (constantI S_ 1 1#1) hr hu ValueIdx.ix0 = 1#1) :
    ∀ i, ∃ r : ℝ, x i = (r : EReal) := by
  intro i
  have h1 := Host.reduce_andi_all _ _ hr hu ValueIdx.ix0 e i
  have h2 : Ideal.cmp .olt (max (x i) (-(x i))) (Ideal.ofBits .f32 0x7F800000#32) = 1#1 := h1
  have h3 : Ideal.ofBits .f32 0x7F800000#32 = ⊤ := by simp [Ideal.ofBits, Ideal.ieee]
  rw [h3] at h2
  refine real_of_abs_lt_top (x i) ?_
  by_contra hn
  simp [Ideal.cmp, hn] at h2

/-- From the printed predicate being all ones: the entries of x, of both adjacency matrices and of the first two
    weight matrices are real numbers (the inputs the re-association of the products needs). -/
theorem real_of_pre [Cert.Pre_finite_inputs.Facts] (x0 : FVec Ideal S10000x128 .f32) (x1 x2 : FVec Ideal S10000x10000 .f32)
    (x3 x4 x5 : FVec Ideal S128x128 .f32) (x6 x7 x8 : FVec Ideal S128x1 .f32) (x9 : FVec Ideal S3x3 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  -- the predicate at its one index is the conjunction of the ten all-reductions
  have h0 := congrFun h ValueIdx.ix0
  dsimp only [fn, fn_part1, fn_part2] at h0
  simp only [andi, IntOp.andi_eq_one] at h0
  obtain ⟨⟨⟨⟨⟨⟨⟨⟨⟨e0, e1⟩, e2⟩, e3⟩, e4⟩, _⟩, _⟩, _⟩, _⟩, _⟩ := h0
  exact ⟨real_of_all _ _ _ _ x0 e0, real_of_all _ _ _ _ x1 e1, real_of_all _ _ _ _ x2 e2,
    real_of_all _ _ _ _ x3 e3, real_of_all _ _ _ _ x4 e4⟩

end Cert.Proof.Finite

end
-- ==== Proof.Claims.lean ====
/-
  The five claims.

  The word-level kernel and its idealization run to the end and leave their arguments as launched (the frames of
  Proof/KFrame.lean and Proof/KIFrame.lean); the reference's frame is its run with the result dropped; nothing was
  rewritten by the idealization, so there is nothing to preserve.  For the value: under the precondition every
  entry of every input is a real number (Proof/Finite.lean), so the idealized kernel's result array is the layer's
  row-wise value `Cert.Spec.G` of its arguments (Proof/KIValue.lean: the products re-associate, the zero-padded
  attention matrices give the three separate scores, the logistic operation is its expansion); the reference's
  result is the same function of its arguments operation by operation (Proof/RefValue.lean); and the arguments agree.
-/
import proofs.«123373_g4337916969350_cont_sun_m_394_11_alg».proof.Defs
import proofs.«123373_g4337916969350_cont_sun_m_394_11_alg».proof.Proof.Gen.Kernel
import proofs.«123373_g4337916969350_cont_sun_m_394_11_alg».proof.Proof.Gen.KernelIdeal
import proofs.«123373_g4337916969350_cont_sun_m_394_11_alg».proof.Proof.Gen.ReferenceIdeal
import proofs.«123373_g4337916969350_cont_sun_m_394_11_alg».proof.Proof.Gen.Pre_finite_inputs
import proofs.«123373_g4337916969350_cont_sun_m_394_11_alg».proof.Proof.Gen.ReferenceIdeal.Run
import proofs.«123373_g4337916969350_cont_sun_m_394_11_alg».proof.Proof.Gen.ReferenceIdeal.Read
import proofs.«123373_g4337916969350_cont_sun_m_394_11_alg».proof.Proof.KFrame
import proofs.«123373_g4337916969350_cont_sun_m_394_11_alg».proof.Proof.KIFrame
import proofs.«123373_g4337916969350_cont_sun_m_394_11_alg».proof.Proof.KIValue
import proofs.«123373_g4337916969350_cont_sun_m_394_11_alg».proof.Proof.RefValue
import proofs.«123373_g4337916969350_cont_sun_m_394_11_alg».proof.Proof.Finite

noncomputable section

namespace Cert.Proof.Claims

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hre := fun c : Dev Cert.KernelIdeal.nD => Cert.Proof.Finite.real_of_pre _ _ _ _ _ _ _ _ _ _ (hpre c)
  refine ⟨fun c => Cert.KernelIdeal.Val.Gm m c, Cert.KernelIdeal.Val.run m ρ hre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v44_eq, Cert.ReferenceIdeal.RefValue.ref_eq_G, h0, h1, h2, h3, h4, h5, h6, h7, h8, h9]

end Cert.Proof.Claims

end
-- ==== Proof.lean ====
/-
  `Cert.Claim`: the two kernels' frames, the reference's frame, the (empty) idealization ledger, and the equality of
  the idealized kernel's and the idealized reference's results as extended reals — each proved in Proof/Claims.lean
  from the frame modules, the row-wise specification of the layer (Proof/Spec.lean) and the two readings of it.
-/
import proofs.«123373_g4337916969350_cont_sun_m_394_11_alg».proof.Defs
import proofs.«123373_g4337916969350_cont_sun_m_394_11_alg».proof.Proof.Gen.Kernel
import proofs.«123373_g4337916969350_cont_sun_m_394_11_alg».proof.Proof.Gen.Kernel.Skeleton
import proofs.«123373_g4337916969350_cont_sun_m_394_11_alg».proof.Proof.Gen.Kernel.Launch
import proofs.«123373_g4337916969350_cont_sun_m_394_11_alg».proof.Proof.Gen.Kernel.Points
import proofs.«123373_g4337916969350_cont_sun_m_394_11_alg».proof.Proof.Gen.KernelIdeal
import proofs.«123373_g4337916969350_cont_sun_m_394_11_alg».proof.Proof.Gen.KernelIdeal.Skeleton
import proofs.«123373_g4337916969350_cont_sun_m_394_11_alg».proof.Proof.Gen.KernelIdeal.Launch
import proofs.«123373_g4337916969350_cont_sun_m_394_11_alg».proof.Proof.Gen.KernelIdeal.Points
import proofs.«123373_g4337916969350_cont_sun_m_394_11_alg».proof.Proof.Gen.ReferenceIdeal
import proofs.«123373_g4337916969350_cont_sun_m_394_11_alg».proof.Proof.Gen.Pre_finite_inputs
import proofs.«123373_g4337916969350_cont_sun_m_394_11_alg».proof.Proof.Gen.ReferenceIdeal.Run
import proofs.«123373_g4337916969350_cont_sun_m_394_11_alg».proof.Proof.Gen.ReferenceIdeal.Read
import proofs.«123373_g4337916969350_cont_sun_m_394_11_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
